-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "pos_big" .f32 0x7149F2CA#32 ⊤
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x1024 .f32) (main_arg1 : IVec S16384 32) (main_arg2 : FVec F S1000x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg2
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 1000#32
  let main_v13 : IVec S16384 32 := broadcastInDim S16384 ![] bcast_S_S16384 main_c_4
  let main_v14 : IVec S16384 1 := cmpi .slt main_arg1 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩
abbrev S1024x1024 : Shape := ⟨2, ![1024, 1024]⟩
abbrev S16384x1 : Shape := ⟨2, ![16384, 1]⟩
abbrev S1x1024 : Shape := ⟨2, ![1, 1024]⟩
abbrev S1024 : Shape := ⟨1, ![1024]⟩
abbrev S1024x1 : Shape := ⟨2, ![1024, 1]⟩
abbrev S1x2048 : Shape := ⟨2, ![1, 2048]⟩
abbrev S1x128 : Shape := ⟨2, ![1, 128]⟩
abbrev S1 : Shape := ⟨1, ![1]⟩
abbrev S1x1 : Shape := ⟨2, ![1, 1]⟩

abbrev nBuf : Space → Nat
  | .hbm => 17
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S_, .i32⟩
  | .hbm, ⟨4, _⟩ => ⟨S_, .f32⟩
  | .hbm, ⟨5, _⟩ => ⟨S1024x1024, .f32⟩
  | .hbm, ⟨6, _⟩ => ⟨S1024x1024, .bf16⟩
  | .hbm, ⟨7, _⟩ => ⟨S16384x1, .i32⟩
  | .hbm, ⟨8, _⟩ => ⟨S1x1024, .f32⟩
  | .hbm, ⟨9, _⟩ => ⟨S1x1024, .f32⟩
  | .hbm, ⟨10, _⟩ => ⟨S1x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x1024, .f32⟩
  | .local _ .vmem, ⟨1, _⟩ => ⟨S1x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1, .i32⟩
  | .local _ .vmem, ⟨6, _⟩ => ⟨S1024x1, .i32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x128, .f32⟩
  | .local _ .vmem, ⟨11, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  pads_S1000x1024_S1024x1024_0240_000 : S1000x1024.Pads (![0, 0] : Fin 2 → Nat) ![24, 0] ![0, 0] S1024x1024
  h_S_ : 0 < S_.numel
  bitsLt_bf16_f32 : FTy.bits .bf16 < FTy.bits .f32
  shapeCasts_S16384_S16384x1 : S16384.ShapeCasts S16384x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  transposes_S1024x1024_p1_0_S1024x1024 : S1024x1024.Transposes [1, 0] S1024x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  reducesTo_S1x2048_S_d0_1 : S1x2048.ReducesTo [0, 1] S_
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S16384x1.size a
  hwx1_1 : ∀ i : grid1.Coords, EltTy.bits .i32 = 32 ∨ (Rect.block (s := S16384x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x2048.size a
  hwx1_5 : ∀ i : grid1.Coords, EltTy.bits .f32 = 32 ∨ (Rect.block (s := S1x2048) S1x128.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S1x1024.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S1x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S1024x1000 : Shape := ⟨2, ![1024, 1000]⟩
abbrev S1000x1 : Shape := ⟨2, ![1000, 1]⟩
abbrev S1000x1000 : Shape := ⟨2, ![1000, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x1024, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S1024x1000, .f32⟩
  | .hbm, ⟨15, _⟩ => ⟨S16384x1000, .f32⟩
  | .hbm, ⟨16, _⟩ => ⟨S_, .f32⟩
  | .hbm, ⟨17, _⟩ => ⟨S16384x1000, .f32⟩
  | .hbm, ⟨18, _⟩ => ⟨S16384x1000, .f32⟩
  | .hbm, ⟨19, _⟩ => ⟨S16384x1000, .f32⟩
  | .hbm, ⟨20, _⟩ => ⟨S_, .f32⟩
  | .hbm, ⟨21, _⟩ => ⟨S16384x1000, .f32⟩
  | .hbm, ⟨22, _⟩ => ⟨S16384x1000, .f32⟩
  | .hbm, ⟨23, _⟩ => ⟨S1000x1, .f32⟩
  | .hbm, ⟨24, _⟩ => ⟨S1x1000, .f32⟩
  | .hbm, ⟨25, _⟩ => ⟨S1000x1000, .f32⟩
  | .hbm, ⟨26, _⟩ => ⟨S1000x1000, .f32⟩
  | .hbm, ⟨27, _⟩ => ⟨S1000x1000, .f32⟩
  | .hbm, ⟨28, _⟩ => ⟨S1024x1000, .f32⟩
  | .hbm, ⟨29, _⟩ => ⟨S1000x1000, .f32⟩
  | .hbm, ⟨30, _⟩ => ⟨S_, .f32⟩
  | .hbm, ⟨31, _⟩ => ⟨S1000x1000, .f32⟩
  | .hbm, ⟨32, _⟩ => ⟨S1000x1000, .f32⟩
  | .hbm, ⟨33, _⟩ => ⟨S1000x1000, .f32⟩
  | .hbm, ⟨34, _⟩ => ⟨S_, .f32⟩
  | .hbm, ⟨35, _⟩ => ⟨S1000x1000, .f32⟩
  | .hbm, ⟨36, _⟩ => ⟨S1000x1000, .f32⟩
  | .hbm, ⟨37, _⟩ => ⟨S16384x1, .i32⟩
  | .hbm, ⟨38, _⟩ => ⟨S1000, .i32⟩
  | .hbm, ⟨39, _⟩ => ⟨S1x1000, .i32⟩
  | .hbm, ⟨40, _⟩ => ⟨S16384x1000, .i32⟩
  | .hbm, ⟨41, _⟩ => ⟨S16384x1000, .i32⟩
  | .hbm, ⟨42, _⟩ => ⟨S16384x1000, .i1⟩
  | .hbm, ⟨43, _⟩ => ⟨S16384x1, .i32⟩
  | .hbm, ⟨44, _⟩ => ⟨S_, .i32⟩
  | .hbm, ⟨45, _⟩ => ⟨S16384x1, .i32⟩
  | .hbm, ⟨46, _⟩ => ⟨S16384x1, .i1⟩
  | .hbm, ⟨47, _⟩ => ⟨S_, .i32⟩
  | .hbm, ⟨48, _⟩ => ⟨S16384x1, .i32⟩
  | .hbm, ⟨49, _⟩ => ⟨S16384x1, .i32⟩
  | .hbm, ⟨50, _⟩ => ⟨S16384x1, .i32⟩
  | .hbm, ⟨51, _⟩ => ⟨S16384x1x1, .i32⟩
  | .hbm, ⟨52, _⟩ => ⟨S1, .i32⟩
  | .hbm, ⟨53, _⟩ => ⟨S_, .i32⟩
  | .hbm, ⟨54, _⟩ => ⟨S16384x1x1, .i32⟩
  | .hbm, ⟨55, _⟩ => ⟨S16384x1x1, .i1⟩
  | .hbm, ⟨56, _⟩ => ⟨S1x1x1, .i32⟩
  | .hbm, ⟨57, _⟩ => ⟨S16384x1x1, .i32⟩
  | .hbm, ⟨58, _⟩ => ⟨S16384x1x1, .i1⟩
  | .hbm, ⟨59, _⟩ => ⟨S16384x1x1, .i1⟩
  | .hbm, ⟨60, _⟩ => ⟨S_, .i1⟩
  | .hbm, ⟨61, _⟩ => ⟨S16384x1, .i1⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384, .f32⟩
  | .hbm, ⟨67, _⟩ => ⟨S_, .f32⟩
  | .hbm, ⟨68, _⟩ => ⟨S16384x1000, .f32⟩
  | .hbm, ⟨69, _⟩ => ⟨S16384x1000, .f32⟩
  | .hbm, ⟨70, _⟩ => ⟨S_, .f32⟩
  | .hbm, ⟨71, _⟩ => ⟨S16384, .f32⟩
  | .hbm, ⟨72, _⟩ => ⟨S_, .i32⟩
  | .hbm, ⟨73, _⟩ => ⟨S16384, .i32⟩
  | .hbm, ⟨74, _⟩ => ⟨S16384, .i1⟩
  | .hbm, ⟨75, _⟩ => ⟨S_, .i32⟩
  | .hbm, ⟨76, _⟩ => ⟨S16384, .i32⟩
  | .hbm, ⟨77, _⟩ => ⟨S16384, .i32⟩
  | .hbm, ⟨78, _⟩ => ⟨S16384, .i32⟩
  | .hbm, ⟨79, _⟩ => ⟨S16384x1, .i32⟩
  | .hbm, ⟨80, _⟩ => ⟨S16384x1000, .f32⟩
  | .hbm, ⟨81, _⟩ => ⟨S_, .f32⟩
  | .hbm, ⟨82, _⟩ => ⟨S16384x1000, .f32⟩
  | .hbm, ⟨83, _⟩ => ⟨S16384x1000, .f32⟩
  | .hbm, ⟨84, _⟩ => ⟨S_, .f32⟩
  | .hbm, ⟨85, _⟩ => ⟨S16384, .f32⟩
  | .hbm, ⟨86, _⟩ => ⟨S_, .f32⟩
  | .hbm, ⟨87, _⟩ => ⟨S16384, .f32⟩
  | .hbm, ⟨88, _⟩ => ⟨S16384, .f32⟩
  | .hbm, ⟨89, _⟩ => ⟨S16384, .f32⟩
  | .hbm, ⟨90, _⟩ => ⟨S_, .f32⟩
  | .hbm, ⟨91, _⟩ => ⟨S16384, .f32⟩
  | .hbm, ⟨92, _⟩ => ⟨S16384, .f32⟩
  | .hbm, ⟨93, _⟩ => ⟨S_, .f32⟩
  | .hbm, ⟨94, _⟩ => ⟨S16384, .f32⟩
  | .hbm, ⟨95, _⟩ => ⟨S16384, .f32⟩
  | .hbm, ⟨96, _⟩ => ⟨S_, .f32⟩
  | .hbm, ⟨97, _⟩ => ⟨S16384, .f32⟩
  | .hbm, ⟨98, _⟩ => ⟨S16384, .f32⟩
  | .hbm, ⟨99, _⟩ => ⟨S16384, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_cst : Ref sig .tc := ⟨.hbm, 63, rfl⟩
abbrev main_call0_v14 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_call1_v0 : Ref sig .tc := ⟨.hbm, 68, rfl⟩
abbrev main_v37 : Ref sig .tc := ⟨.hbm, 69, rfl⟩
abbrev main_cst_6 : Ref sig .tc := ⟨.hbm, 70, rfl⟩
abbrev main_v38 : Ref sig .tc := ⟨.hbm, 71, rfl⟩
abbrev main_c : Ref sig .tc := ⟨.hbm, 72, rfl⟩
abbrev main_v39 : Ref sig .tc := ⟨.hbm, 73, rfl⟩
abbrev main_v40 : Ref sig .tc := ⟨.hbm, 74, rfl⟩
abbrev main_c_7 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_8 : Ref sig .tc := ⟨.hbm, 81, rfl⟩
abbrev main_call2_v0 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_cst_10 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call3_cst : Ref sig .tc := ⟨.hbm, 90, rfl⟩
abbrev main_call3_v0 : Ref sig .tc := ⟨.hbm, 91, rfl⟩
abbrev main_v51 : Ref sig .tc := ⟨.hbm, 92, rfl⟩
abbrev main_cst_11 : Ref sig .tc := ⟨.hbm, 93, rfl⟩
abbrev main_v52 : Ref sig .tc := ⟨.hbm, 94, rfl⟩
abbrev main_v53 : Ref sig .tc := ⟨.hbm, 95, rfl⟩
abbrev main_call4_cst : Ref sig .tc := ⟨.hbm, 96, rfl⟩
abbrev main_call4_v0 : Ref sig .tc := ⟨.hbm, 97, rfl⟩
abbrev main_v54 : Ref sig .tc := ⟨.hbm, 98, rfl⟩
abbrev main_v55 : Ref sig .tc := ⟨.hbm, 99, rfl⟩
abbrev main_cst_12 : Ref sig .tc := ⟨.hbm, 100, rfl⟩
abbrev main_v56 : Ref sig .tc := ⟨.hbm, 101, rfl⟩
abbrev main_cst_13 : Ref sig .tc := ⟨.hbm, 102, rfl⟩
abbrev main_v57 : Ref sig .tc := ⟨.hbm, 103, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1000x1024_S1000_d1 : S1000x1024.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x1024_S1024x1000_1_0 : S1000x1024.Transposes [1, 0] S1024x1000
  bcast_S_S16384x1000 : S_.BroadcastsInDim S16384x1000 (![] : Fin 0 → Fin S16384x1000.rank)
  bcast_S1000_S1000x1_0 : S1000.BroadcastsInDim S1000x1 (![0] : Fin 1 → Fin S1000x1.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  bcast_S_S1000x1000 : S_.BroadcastsInDim S1000x1000 (![] : Fin 0 → Fin S1000x1000.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384x1000_S16384_d1 : S16384x1000.ReducesTo [1] S16384
  bcast_S_S16384 : S_.BroadcastsInDim S16384 (![] : Fin 0 → Fin S16384.rank)
  reducesTo_S16384_S_d0 : S16384.ReducesTo [0] S_
  dot_S16384x1024_S1024x1000_S16384x1000_1_0_0_1_n_n_wf : DotDims.WF S16384x1024 S1024x1000 S16384x1000 [1] [0] [0] [1] [] []
  dot_S1000x1024_S1024x1000_S1000x1000_1_0_0_1_n_n_wf : DotDims.WF S1000x1024 S1024x1000 S1000x1000 [1] [0] [0] [1] [] []
  gather_S16384x1000_S16384x1x1_S16384x1_n_1_0_0_1_2_11_wf : GatherDims.WF S16384x1000 S16384x1x1 S16384x1 [] [1] [0] [1] [0] 2 ![1, 1]
  gather_S1000x1000_S16384x1_S16384x1000_1_0_n_n_0_1_11000_wf : GatherDims.WF S1000x1000 S16384x1 S16384x1000 [1] [0] [] [0] [] 1 ![1, 1000]

variable [Facts₀]

def dot_S16384x1024_S1024x1000_S16384x1000_1_0_0_1_n_n : DotDims S16384x1024 S1024x1000 S16384x1000 where
  lhsContracting := [1]
  rhsContracting := [0]
  lhsNonContracting := [0]
  rhsNonContracting := [1]
  lhsBatch := []
  rhsBatch := []
  wf := dot_S16384x1024_S1024x1000_S16384x1000_1_0_0_1_n_n_wf
def dot_S1000x1024_S1024x1000_S1000x1000_1_0_0_1_n_n : DotDims S1000x1024 S1024x1000 S1000x1000 where
  lhsContracting := [1]
  rhsContracting := [0]
  lhsNonContracting := [0]
  rhsNonContracting := [1]
  lhsBatch := []
  rhsBatch := []
  wf := dot_S1000x1024_S1024x1000_S1000x1000_1_0_0_1_n_n_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf
def gather_S1000x1000_S16384x1_S16384x1000_1_0_n_n_0_1_11000 : GatherDims S1000x1000 S16384x1 S16384x1000 where
  offsetDims := [1]
  collapsedSliceDims := [0]
  operandBatchingDims := []
  startIndicesBatchingDims := []
  startIndexMap := [0]
  indexVectorDim := 1
  sliceSizes := ![1, 1000]
  wf := gather_S1000x1000_S16384x1_S16384x1000_1_0_n_n_0_1_11000_wf

class Facts : Prop extends Facts₀ where

variable [Facts]
-- ==== Proof.TripletCenter.lean ====
/-
  The triplet-center loss as one function of the three argument arrays over the extended reals.

  For a batch `x` of 16384 rows, class centers `cen` of 1000 rows (both with 1024 columns) and a class `l b < 1000`
  for every row `b`:
    * `hdist p q d = ½ · ((p + q) − 2 · d)` is half the squared distance of two vectors with squared lengths
      `p`, `q` and inner product `d`;
    * `dxc b j` is that half distance between row `b` of `x` and center `j`, `dcc i j` between centers `i`, `j`;
    * `minOther f l` is the least `f j` over the classes `j ≠ l` (the class `l` itself is masked by `+∞`);
    * `loss b l = max (dxc b l + 5 − minOther (dxc b) l) 0 + max (7 − minOther (dcc l) l) 0`;
    * `total` is the mean of `loss b (l b)` over the batch.
  The four literals are kept as the words both programs print (2, ½, 5, 7, 16384 are never evaluated).
-/
import Idealize.ShloMosaic.PureOps.Ideal
import Idealize.ShloMosaic.Lib.ValueIdx

noncomputable section

open scoped BigOperators

namespace Cert.TripletCenter

open Idealize.ShloMosaic Idealize.ShloMosaic.ValueIdx

/-- The literal 2. -/
def w2 : EReal := Ideal.ofBits .f32 0x40000000#32
/-- The literal ½. -/
def wh : EReal := Ideal.ofBits .f32 0x3F000000#32
/-- The margin 5. -/
def w5 : EReal := Ideal.ofBits .f32 0x40A00000#32
/-- The margin plus two, 7. -/
def w7 : EReal := Ideal.ofBits .f32 0x40E00000#32
/-- The batch size 16384. -/
def wB : EReal := Ideal.ofBits .f32 0x46800000#32

/-- The word of +∞ (the start of both minima, and the reference's mask value) is the top of the extended reals. -/
theorem ofBits_inf : Ideal.ofBits .f32 0x7F800000#32 = (⊤ : EReal) := by
  simp [Ideal.ofBits, Ideal.ieee]

/-- The squared length of row `r` of a matrix with 1024 columns. -/
def sqn {R : ℕ} (a : (⟨2, ![R, 1024]⟩ : Shape).Idx → EReal) (r : Fin R) : EReal :=
  ∑ k : Fin 1024, a (ix2 r k) * a (ix2 r k)

/-- The inner product of row `r` of `a` with row `r'` of `b`. -/
def dot {R R' : ℕ} (a : (⟨2, ![R, 1024]⟩ : Shape).Idx → EReal) (b : (⟨2, ![R', 1024]⟩ : Shape).Idx → EReal)
    (r : Fin R) (r' : Fin R') : EReal :=
  ∑ k : Fin 1024, a (ix2 r k) * b (ix2 r' k)

/-- Half the squared distance from the squared lengths and the inner product: ½ · ((p + q) − 2 · d). -/
def hdist (p q d : EReal) : EReal := wh * ((p + q) - w2 * d)

/-- Half the squared distance between row `b` of the batch and center `j`. -/
def dxc (x : (⟨2, ![16384, 1024]⟩ : Shape).Idx → EReal) (cen : (⟨2, ![1000, 1024]⟩ : Shape).Idx → EReal)
    (b : Fin 16384) (j : Fin 1000) : EReal :=
  hdist (sqn x b) (sqn cen j) (dot x cen b j)

/-- Half the squared distance between centers `i` and `j`. -/
def dcc (cen : (⟨2, ![1000, 1024]⟩ : Shape).Idx → EReal) (i j : Fin 1000) : EReal :=
  hdist (sqn cen i) (sqn cen j) (dot cen cen i j)

/-- The least value of `f` over the classes other than `l`. -/
def minOther (f : Fin 1000 → EReal) (l : Fin 1000) : EReal :=
  (Finset.univ : Finset (Fin 1000)).fold min ⊤ (fun j => if j = l then ⊤ else f j)

/-- The loss of row `b` when its class is `l`. -/
def loss (x : (⟨2, ![16384, 1024]⟩ : Shape).Idx → EReal) (cen : (⟨2, ![1000, 1024]⟩ : Shape).Idx → EReal)
    (b : Fin 16384) (l : Fin 1000) : EReal :=
  max ((dxc x cen b l + w5) - minOther (dxc x cen b) l) 0 + max (w7 - minOther (dcc cen l) l) 0

/-- The mean loss over the batch. -/
def total (x : (⟨2, ![16384, 1024]⟩ : Shape).Idx → EReal) (l : Fin 16384 → Fin 1000)
    (cen : (⟨2, ![1000, 1024]⟩ : Shape).Idx → EReal) : EReal :=
  Ideal.div (∑ b : Fin 16384, loss x cen b (l b)) wB

/-- The class of row `b` read off a vector of 32-bit words (meaningful when every word is below 1000). -/
def classOf (lab : (⟨1, ![16384]⟩ : Shape).Idx → BitVec 32) (b : Fin 16384) : Fin 1000 :=
  ⟨(lab (ix1 b)).toNat % 1000, Nat.mod_lt _ (by decide)⟩

/-- Every label word is a class: non-negative and below 1000 as a signed number. -/
def InRange (lab : (⟨1, ![16384]⟩ : Shape).Idx → BitVec 32) : Prop :=
  ∀ b : Fin 16384, (lab (ix1 b)).toNat < 1000

theorem classOf_val {lab : (⟨1, ![16384]⟩ : Shape).Idx → BitVec 32} (h : InRange lab) (b : Fin 16384) :
    (classOf lab b).val = (lab (ix1 b)).toNat := Nat.mod_eq_of_lt (h b)

theorem ofNat_classOf {lab : (⟨1, ![16384]⟩ : Shape).Idx → BitVec 32} (h : InRange lab) (b : Fin 16384) :
    BitVec.ofNat 32 (classOf lab b).val = lab (ix1 b) := by
  rw [classOf_val h b, BitVec.ofNat_toNat, BitVec.setWidth_eq]

end Cert.TripletCenter

end
-- ==== Proof.LabelRange.lean ====
/-
  From the precondition to the labels' range. The precondition is a conjunction of four all-quantified tests; its last
  two say that every label word is, read as a signed number, at least 0 and below 1000. A word that is non-negative
  and below 1000 as a signed number has a value below 1000 as a natural number.
-/
import proofs.«409714_j15917148799612_3_alg».proof.Pre_finite_inputs
import proofs.«409714_j15917148799612_3_alg».proof.Proof.TripletCenter
import Idealize.ShloMosaic.Lib.ReduceAll
import Idealize.ShloMosaic.Lib.StableHlo.Predicate

noncomputable section

namespace Cert.Pre_finite_inputs.LabelRange

open Idealize.ShloMosaic Idealize.ShloMosaic.ValueIdx Cert.Pre_finite_inputs

/-- A 32-bit word that is at least 0 and below 1000 as a signed number is below 1000 as a natural number. The signed
    value of a word is its natural value when the top bit is clear and its natural value less 2³² when it is set; the
    second case is negative, so the first test rules it out, and in the first case the second test is the claim. -/
theorem toNat_lt_of_signed (a : BitVec 32) (h0 : IntOp.cmpi .sge a 0#32 = 1#1)
    (h1 : IntOp.cmpi .slt a 1000#32 = 1#1) : a.toNat < 1000 := by
  have e0 : (0#32 : BitVec 32).toInt = 0 := by decide
  have e1 : (1000#32 : BitVec 32).toInt = 1000 := by decide
  simp only [IntOp.cmpi, StableHlo.Predicate.ofBool_eq_one_iff, BitVec.sle, BitVec.slt, decide_eq_true_eq, e0, e1] at h0 h1
  have hlt := a.isLt
  rcases Nat.lt_or_ge (2 * a.toNat) (2 ^ 32) with hs | hs
  · have e : a.toInt = a.toNat := by rw [BitVec.toInt_eq_toNat_cond, if_pos hs]
    omega
  · have e : a.toInt = (a.toNat : Int) - 2 ^ 32 := by
      rw [BitVec.toInt_eq_toNat_cond, if_neg (by omega)]
      norm_cast
    omega

/-- Where the precondition holds every label is a class. The precondition is ((t₁ ∧ t₂) ∧ t₃) ∧ t₄ with each tᵢ the
    conjunction of a test over a whole array; t₃ and t₄ are the two label tests. A conjunction of bits is 1 only if
    each is, and a conjunction over an array is 1 only if every element is: so at row `b` the label is at least the
    broadcast 0 and below the broadcast 1000 as a signed number. -/
theorem inRange [Cert.Pre_finite_inputs.Facts] (x0 : FVec Ideal S16384x1024 .f32) (x1 : IVec S16384 32)
    (x2 : FVec Ideal S1000x1024 .f32)
    (h : Cert.Pre_finite_inputs.fn (F := Ideal) x0 x1 x2 = fun _ => 1#1) : Cert.TripletCenter.InRange x1 := by
  intro b
  -- the scalar shape has exactly one index
  haveI : Subsingleton S_.Idx := ⟨fun a b => funext fun d => d.elim0⟩
  have h' := congrFun h ValueIdx.ix0
  dsimp only [fn, fn_part1] at h'
  obtain ⟨h12, h15⟩ := IntOp.andi_eq_one.1 h'
  obtain ⟨_, h11⟩ := IntOp.andi_eq_one.1 h12
  have hge := Host.reduce_andi_all _ _ _ _ _ h11 (ix1 b)
  have hlt := Host.reduce_andi_all _ _ _ _ _ h15 (ix1 b)
  simp only [cmpi, StableHlo.Predicate.bcast_scalar _ Facts.h_S_, constantI] at hge hlt
  exact toNat_lt_of_signed _ hge hlt

end Cert.Pre_finite_inputs.LabelRange

end
-- ==== Proof.RefDist.lean ====
/-
  The reference program's two distance matrices and its class mask, read at an index over the extended reals.
    * stage 15 at (b, j) is half the squared distance between batch row b and center j, by the expansion
      ½·((|x_b|² + |c_j|²) − 2·x_b·c_j): two row sums of squares, a matrix product with the transposed centers, and
      broadcasts of the two vectors of squared lengths along the other axis;
    * stage 27 at (i, j) is the same between centers i and j;
    * stage 33 at (b, j) is set exactly when the label word of row b is the word of the column number j (the labels
      broadcast along the class axis against an iota along it).
-/
import proofs.«409714_j15917148799612_3_alg».proof.Proof.RefRead
import proofs.«409714_j15917148799612_3_alg».proof.Proof.TripletCenter
import Idealize.ShloMosaic.PureOps.Ideal.Laws
import Idealize.ShloMosaic.Lib.Pipeline.Value
import Idealize.ShloMosaic.Lib.ValueLayout
import Idealize.ShloMosaic.Lib.StableHlo.Predicate

noncomputable section

open scoped BigOperators

namespace Cert.ReferenceIdeal.RefDist

open Idealize.ShloMosaic Idealize.ShloMosaic.ValueIdx Cert.ReferenceIdeal Cert.ReferenceIdeal.Gen Cert.ReferenceIdeal.ReadP
  Cert.TripletCenter

/-- Stage 1 at b: the row sum of squares of the batch (its initial value is the word of zero) is the squared length of row b. -/
theorem sqx_apply (x0 : (⟨S16384x1024, .f32⟩ : BufTy).Contents (Elt Ideal)) (b : Fin 16384) :
    val_main_v1 (F := Ideal) x0 (ix1 b) = sqn x0 b := by
  have e : ∀ k : Fin 1024, idx_main_v1 (ix1 b) k = ix2 b k := fun k =>
    funext fun a => Fin.ext (by match a with | ⟨0, _⟩ => rfl | ⟨1, _⟩ => rfl)
  rw [val_main_v1_apply, val_main_cst_apply]
  simp only [val_main_v0_apply, e, Ideal.mulf_def, Ideal.ofBits_def, Ideal.ofBits_zero_f32, zero_add]
  rfl

/-- Stage 4 at j: the row sum of squares of the centers is the squared length of center j. -/
theorem sqc_apply (x2 : (⟨S1000x1024, .f32⟩ : BufTy).Contents (Elt Ideal)) (j : Fin 1000) :
    val_main_v4 (F := Ideal) x2 (ix1 j) = sqn x2 j := by
  have e : ∀ k : Fin 1024, idx_main_v4 (ix1 j) k = ix2 j k := fun k =>
    funext fun a => Fin.ext (by match a with | ⟨0, _⟩ => rfl | ⟨1, _⟩ => rfl)
  rw [val_main_v4_apply, val_main_cst_0_apply]
  simp only [val_main_v3_apply, e, Ideal.mulf_def, Ideal.ofBits_def, Ideal.ofBits_zero_f32, zero_add]
  rfl

/-- Stage 10 at (b, j): the product of the batch with the transposed centers is the inner product of row b and center j. -/
theorem dotxc_apply (x0 : (⟨S16384x1024, .f32⟩ : BufTy).Contents (Elt Ideal)) (x2 : (⟨S1000x1024, .f32⟩ : BufTy).Contents (Elt Ideal))
    (b : Fin 16384) (j : Fin 1000) :
    val_main_v10 (F := Ideal) x0 x2 (ix2 b j) = dot x0 x2 b j := by
  have el : ∀ k : Fin 1024, lidx_main_v10 (ix2 b j) k = ix2 b k := fun k =>
    funext fun a => Fin.ext (by match a with | ⟨0, _⟩ => rfl | ⟨1, _⟩ => rfl)
  have er : ∀ k : Fin 1024, idx_main_v9 (ridx_main_v10 (ix2 b j) k) = ix2 j k := fun k =>
    funext fun a => Fin.ext (by match a with | ⟨0, _⟩ => rfl | ⟨1, _⟩ => rfl)
  rw [val_main_v10_apply]
  simp only [val_main_v9_apply, el, er]
  rfl

/-- Stage 22 at (i, j): the product of the centers with their transpose is the inner product of centers i and j. -/
theorem dotcc_apply (x2 : (⟨S1000x1024, .f32⟩ : BufTy).Contents (Elt Ideal)) (i j : Fin 1000) :
    val_main_v22 (F := Ideal) x2 (ix2 i j) = dot x2 x2 i j := by
  have el : ∀ k : Fin 1024, lidx_main_v22 (ix2 i j) k = ix2 i k := fun k =>
    funext fun a => Fin.ext (by match a with | ⟨0, _⟩ => rfl | ⟨1, _⟩ => rfl)
  have er : ∀ k : Fin 1024, idx_main_v21 (ridx_main_v22 (ix2 i j) k) = ix2 j k := fun k =>
    funext fun a => Fin.ext (by match a with | ⟨0, _⟩ => rfl | ⟨1, _⟩ => rfl)
  rw [val_main_v22_apply]
  simp only [val_main_v21_apply, el, er]
  rfl

/-- Stage 15: half the squared distance between batch row b and center j. -/
theorem dxc_apply (x0 : (⟨S16384x1024, .f32⟩ : BufTy).Contents (Elt Ideal)) (x2 : (⟨S1000x1024, .f32⟩ : BufTy).Contents (Elt Ideal))
    (b : Fin 16384) (j : Fin 1000) :
    val_main_v15 (F := Ideal) x0 x2 (ix2 b j) = dxc x0 x2 b j := by
  -- the squared length of row b is broadcast along the class axis, that of center j along the batch axis
  have ex : idx_main_v2 (idx_main_v6 (ix2 b j)) = ix1 b :=
    funext fun a => Fin.ext (by match a with | ⟨0, _⟩ => rfl)
  have ec : idx_main_v5 (idx_main_v7 (ix2 b j)) = ix1 j :=
    funext fun a => Fin.ext (by match a with | ⟨0, _⟩ => rfl)
  rw [val_main_v15_apply, val_main_v14_apply, val_main_cst_2_apply, val_main_v13_apply, val_main_v8_apply,
    val_main_v6_apply, val_main_v2_apply, ex, sqx_apply, val_main_v7_apply, val_main_v5_apply, ec, sqc_apply,
    val_main_v12_apply, val_main_v11_apply, val_main_cst_1_apply, dotxc_apply]
  simp only [Ideal.mulf_def, Ideal.addf_def, Ideal.subf_def, Ideal.ofBits_def]
  rfl

/-- Stage 27: half the squared distance between centers i and j. -/
theorem dcc_apply (x2 : (⟨S1000x1024, .f32⟩ : BufTy).Contents (Elt Ideal)) (i j : Fin 1000) :
    val_main_v27 (F := Ideal) x2 (ix2 i j) = dcc x2 i j := by
  -- the squared length of center i is broadcast along the second axis, that of center j along the first
  have ei : idx_main_v16 (idx_main_v18 (ix2 i j)) = ix1 i :=
    funext fun a => Fin.ext (by match a with | ⟨0, _⟩ => rfl)
  have ej : idx_main_v17 (idx_main_v19 (ix2 i j)) = ix1 j :=
    funext fun a => Fin.ext (by match a with | ⟨0, _⟩ => rfl)
  rw [val_main_v27_apply, val_main_v26_apply, val_main_cst_4_apply, val_main_v25_apply, val_main_v20_apply,
    val_main_v18_apply, val_main_v16_apply, ei, sqc_apply, val_main_v19_apply, val_main_v17_apply, ej, sqc_apply,
    val_main_v24_apply, val_main_v23_apply, val_main_cst_3_apply, dotcc_apply]
  simp only [Ideal.mulf_def, Ideal.addf_def, Ideal.subf_def, Ideal.ofBits_def]
  rfl

/-- Stage 33: the mask is set at (b, j) exactly when row b's label word is the word of j. -/
theorem mask_apply (x1 : (⟨S16384, .i32⟩ : BufTy).Contents (Elt Ideal)) (b : Fin 16384) (j : Fin 1000) :
    val_main_v33 (F := Ideal) x1 (ix2 b j) = 1#1 ↔ x1 (ix1 b) = BitVec.ofNat 32 j.val := by
  -- the labels are broadcast along the class axis; the iota along the class axis is broadcast along the batch axis
  have eb : idx_main_v28 (idx_main_v31 (ix2 b j)) = ix1 b :=
    funext fun a => Fin.ext (by match a with | ⟨0, _⟩ => rfl)
  rw [val_main_v33_apply, val_main_v31_apply, val_main_v28_apply, eb, val_main_v32_apply, val_main_v30_apply,
    val_main_v29_apply]
  exact StableHlo.Predicate.cmpi_eq_iff

end Cert.ReferenceIdeal.RefDist

end
-- ==== Proof.MinSum.lean ====
/-
  Three facts about sums and minima over the extended reals that join the kernel's column-wise forms to the loss:
    * a sum over 1024 columns in which only the column whose 32-bit word is the label's contributes is that column's term;
    * a minimum (from +∞) over 1024 columns of which the last 24 hold +∞ is the minimum over the first 1000;
    * 2048 lanes that hold, 128 at a time, the sum of a block of 1024 consecutive rows: their total divided by 128 is the
      sum over all 16384 rows (a multiple by 128 divided by 128 is the number itself, at the infinities too).
-/
import proofs.«409714_j15917148799612_3_alg».proof.Proof.TripletCenter
import Mathlib.Data.Finset.Fold
import Mathlib.Data.EReal.Operations
import Mathlib.Algebra.BigOperators.Fin
import Mathlib.Logic.Equiv.Fin.Basic

noncomputable section

open scoped BigOperators

namespace Cert.TripletCenter

open Idealize.ShloMosaic Idealize.ShloMosaic.ValueIdx

/-- Two numbers below 2^32 have the same 32-bit word only if they are equal. -/
theorem ofNat_eq_ofNat_iff {a b : ℕ} (ha : a < 2 ^ 32) (hb : b < 2 ^ 32) :
    BitVec.ofNat 32 a = BitVec.ofNat 32 b ↔ a = b := by
  constructor
  · intro h
    have h' := congrArg BitVec.toNat h
    rwa [BitVec.toNat_ofNat, BitVec.toNat_ofNat, Nat.mod_eq_of_lt ha, Nat.mod_eq_of_lt hb] at h'
  · rintro rfl; rfl

/-- Only the label's own column contributes to a sum over the columns masked by "the label's word is the column's". -/
theorem sum_onehot_word {M : Type*} [AddCommMonoid M] (w : BitVec 32) (l : Fin 1024) (hw : w = BitVec.ofNat 32 l.val)
    (f : Fin 1024 → M) :
    (∑ j : Fin 1024, if w = BitVec.ofNat 32 j.val then f j else 0) = f l := by
  subst hw
  -- the test "the two words agree" is the test "the two columns agree": both columns are below 1024 < 2^32
  have key : ∀ j : Fin 1024, (BitVec.ofNat 32 l.val = BitVec.ofNat 32 j.val) ↔ l = j := fun j => by
    rw [ofNat_eq_ofNat_iff (by omega) (by omega), Fin.val_inj]
  simp only [key, Finset.sum_ite_eq, Finset.mem_univ, if_true]

/-- A minimum from +∞ over 1024 columns whose last 24 hold +∞ is the minimum over the first 1000. -/
theorem fold_min_pad (f : Fin 1024 → EReal) (g : Fin 1000 → EReal)
    (hlo : ∀ j : Fin 1000, f ⟨j.val, by omega⟩ = g j) (hhi : ∀ j : Fin 1024, 1000 ≤ j.val → f j = ⊤) :
    (Finset.univ : Finset (Fin 1024)).fold min ⊤ f = (Finset.univ : Finset (Fin 1000)).fold min ⊤ g := by
  -- each side is a lower bound of the other side's terms
  apply le_antisymm
  · rw [Finset.le_fold_min]
    refine ⟨le_top, fun j _ => ?_⟩
    rw [Finset.fold_min_le]
    exact Or.inr ⟨⟨j.val, by omega⟩, Finset.mem_univ _, (hlo j).le⟩
  · rw [Finset.le_fold_min]
    refine ⟨le_top, fun j _ => ?_⟩
    by_cases hj : j.val < 1000
    · rw [Finset.fold_min_le]
      exact Or.inr ⟨⟨j.val, hj⟩, Finset.mem_univ _, (hlo ⟨j.val, hj⟩).ge⟩
    · rw [hhi j (by omega)]
      exact le_top

/-- Row `l` of block `t`, of `m` blocks of `n` rows, is a row of the whole. -/
theorem block_lt {m n : ℕ} (t : Fin m) (l : Fin n) : t.val * n + l.val < m * n := by
  have h1 : (t.val + 1) * n ≤ m * n := Nat.mul_le_mul_right n t.isLt
  have h2 : (t.val + 1) * n = t.val * n + n := Nat.succ_mul _ _
  have h3 := l.isLt
  omega

/-- A sum over `m · n` consecutive rows is the sum over the `m` blocks of the sums over each block's `n` rows. -/
theorem sum_blocks {M : Type*} [AddCommMonoid M] {m n N : ℕ} (hN : m * n = N) (F : Fin N → M) :
    ∑ b : Fin N, F b = ∑ t : Fin m, ∑ l : Fin n, F ⟨t.val * n + l.val, hN ▸ block_lt t l⟩ := by
  subst hN
  rw [← finProdFinEquiv.sum_comp, Fintype.sum_prod_type]
  refine Finset.sum_congr rfl fun t _ => Finset.sum_congr rfl fun l _ => congrArg F (Fin.ext ?_)
  simp only [finProdFinEquiv_apply_val]
  rw [Nat.mul_comm, Nat.add_comm]

/-- A multiple by 128 times the real 1/128 is the number itself, at the infinities too: the product of extended reals
    is associative and commutative, and 128 · (1/128) = 1. -/
theorem nsmul_mul_inv_128 (S : EReal) : (128 • S) * (((1 / 128 : ℝ)) : EReal) = S := by
  have h1 : ((128 : ℕ) : EReal) * (((1 / 128 : ℝ)) : EReal) = 1 := by
    rw [show ((128 : ℕ) : EReal) = ((128 : ℝ) : EReal) by norm_cast, ← EReal.coe_mul]
    norm_num
  rw [EReal.nsmul_eq_mul, mul_comm ((128 : ℕ) : EReal) S, mul_assoc, h1, mul_one]

/-- The word 0x43000000 is the real 128. -/
theorem ofBits_128 : Ideal.ofBits .f32 0x43000000#32 = ((128 : ℝ) : EReal) := by
  simp [Ideal.ofBits, Ideal.ieee, -EReal.coe_mul]; norm_num

/-- The lanes' mean: 16 blocks of 128 equal lanes, each lane the sum of its block's 1024 rows; the lanes' total
    divided by 128, then by the batch size, is the rows' total divided by the batch size. -/
theorem lane_mean (out : (⟨2, ![1, 2048]⟩ : Shape).Idx → EReal) (g : Fin 16384 → EReal)
    (h : ∀ (t : Fin 16) (l : Fin 128),
      out (ix2 0 ⟨t.val * 128 + l.val, by omega⟩) = ∑ r : Fin 1024, g ⟨t.val * 1024 + r.val, by omega⟩) :
    Ideal.div (Ideal.div (∑ i, out i) (Ideal.ofBits .f32 0x43000000#32)) wB = Ideal.div (∑ b : Fin 16384, g b) wB := by
  -- the lanes' total is 128 times the rows' total: each of the 16 blocks contributes its sum 128 times
  have hsum : (∑ i, out i) = 128 • ∑ b : Fin 16384, g b := by
    rw [sum_idx2, Fin.sum_univ_one, sum_blocks (m := 16) (n := 128) rfl (fun b => out (ix2 0 b)),
      sum_blocks (m := 16) (n := 1024) rfl g, ← Finset.sum_nsmul]
    refine Finset.sum_congr rfl fun t _ => ?_
    rw [Finset.sum_congr rfl fun l _ => h t l, Finset.sum_const, Finset.card_univ, Fintype.card_fin]
  rw [hsum, ofBits_128, Ideal.div_coe (by norm_num), nsmul_mul_inv_128]

end Cert.TripletCenter

end
-- ==== Proof.RefTotal.lean ====
/-
  The reference program's result, stage by stage, is the mean triplet-center loss.
  With every label a class (a word below 1000), the reference's chain of host operations computes, for batch row b with
  class l: the half squared distances d_xc (b, ·) and d_cc (l, ·) by the expansion ½·((|a|² + |c|²) − 2·a·c); the distance to
  the own center by a gather along the class axis (the index is in range, so the gather's out-of-range fill is never
  chosen and the negative-index adjustment is the identity); the two minima over the other classes by a select of +∞ at
  the own class followed by a minimum over the class axis; the two rectified terms; their sum over the batch, divided
  by the batch size.
-/
import proofs.«409714_j15917148799612_3_alg».proof.Proof.RefRead
import proofs.«409714_j15917148799612_3_alg».proof.Proof.RefDist
import proofs.«409714_j15917148799612_3_alg».proof.Proof.MinSum
import proofs.«409714_j15917148799612_3_alg».proof.Proof.TripletCenter
import Idealize.ShloMosaic.PureOps.Ideal.Laws
import Idealize.ShloMosaic.Lib.Pipeline.Value
import Idealize.ShloMosaic.Lib.ValueLayout
import Idealize.ShloMosaic.Lib.StableHlo.Predicate

noncomputable section

open scoped BigOperators

namespace Cert.ReferenceIdeal.RefTotal

open Idealize.ShloMosaic Idealize.ShloMosaic.ValueIdx Cert.ReferenceIdeal Cert.ReferenceIdeal.Gen Cert.ReferenceIdeal.ReadP
  Cert.TripletCenter

/-! ## Words: a label below 1000 -/

/-- A word below 1000 is not negative as a signed word, so the negative-index adjustment
    select(w <s 0, w + 1000, w) returns it. -/
theorem adjust_eq (w : BitVec 32) (hw : w.toNat < 1000) :
    Scalar.select (IntOp.cmpi .slt w 0#32) (IntOp.addi w 1000#32) w = w := by
  have hn : ¬ IntOp.cmpi .slt w 0#32 = 1#1 := by
    rw [StableHlo.Predicate.slt_iff_toNat (Nat.lt_trans hw (by decide)) (by decide)]
    exact Nat.not_lt_zero _
  rw [eq_zero_of_ne_one hn, select_zero]

/-- A word below 1000 passes the in-bounds test 0 ≤s w ∧ w ≤s 999. -/
theorem inb_eq (w : BitVec 32) (hw : w.toNat < 1000) :
    IntOp.andi (IntOp.cmpi .sge w 0#32) (IntOp.cmpi .sle w 999#32) = 1#1 := by
  have h1 : IntOp.cmpi .sge w 0#32 = 1#1 :=
    (StableHlo.Predicate.sge_iff_toNat (Nat.lt_trans hw (by decide)) (by decide)).2 (Nat.zero_le _)
  have h2 : IntOp.cmpi .sle w 999#32 = 1#1 :=
    (StableHlo.Predicate.sle_iff_toNat (Nat.lt_trans hw (by decide)) (by decide)).2 (by show w.toNat ≤ 999; omega)
  rw [h1, h2]; rfl

/-- A word below 1000, read signed and clamped into [0, 999], is its value. -/
theorem clamp_label (w : BitVec 32) (hw : w.toNat < 1000) : min w.toInt.toNat 999 = w.toNat := by
  have e := StableHlo.Predicate.toInt_eq_toNat_of_lt (a := w) (Nat.lt_trans hw (by decide))
  omega

/-- An and-fold from 1 over bits that are all 1 is 1. -/
theorem fold_andi_one {ι : Type} [DecidableEq ι] (s : Finset ι) (f : ι → BitVec 1) (hf : ∀ k, f k = 1#1) :
    s.fold IntOp.andi 1#1 f = 1#1 := by
  refine Finset.induction_on s (Finset.fold_empty) (fun a s ha ih => ?_)
  rw [Finset.fold_insert ha, ih, hf a]; rfl

/-! ## The label stages of the gather along the class axis -/

/-- Stage 34 at (b, 0): the label of row b. -/
theorem v34_at (x1 : (⟨S16384, .i32⟩ : BufTy).Contents (Elt Ideal)) (b : Fin 16384) :
    val_main_v34 (F := Ideal) x1 (ix2 b (0 : Fin 1)) = x1 (ix1 b) := by
  rw [val_main_v34_apply]
  exact congrArg x1 (funext fun a => by match a with | ⟨0, _⟩ => rfl)

/-- The adjusted index at (b, 0) is the label: a label in range is not negative. -/
theorem call0_v4_at (x1 : (⟨S16384, .i32⟩ : BufTy).Contents (Elt Ideal)) (h : InRange x1) (b : Fin 16384) :
    val_main_call0_v4 (F := Ideal) x1 (ix2 b (0 : Fin 1)) = x1 (ix1 b) := by
  rw [val_main_call0_v4_apply, val_main_call0_v1_apply, val_main_call0_v3_apply, v34_at,
    val_main_call0_v0_apply, val_main_call0_c_apply, val_main_call0_v2_apply, val_main_call0_c_0_apply]
  exact adjust_eq _ (h b)

/-- The start indices at (b, 0, 0): the label. -/
theorem call0_v5_at (x1 : (⟨S16384, .i32⟩ : BufTy).Contents (Elt Ideal)) (h : InRange x1) (b : Fin 16384) :
    val_main_call0_v5 (F := Ideal) x1 (ix3 b (0 : Fin 1) (0 : Fin 1)) = x1 (ix1 b) := by
  rw [val_main_call0_v5_apply]
  have e : idx_main_call0_v5 (ix3 b (0 : Fin 1) (0 : Fin 1)) = ix2 b (0 : Fin 1) := by
    funext a
    match a with
    | ⟨0, _⟩ => exact Fin.ext (by show ((b.val * 1 + 0) * 1 + 0) / 1 = b.val; omega)
    | ⟨1, _⟩ => rfl
  rw [e]; exact call0_v4_at x1 h b

/-- The in-bounds bit at (b, 0, 0) is set. -/
theorem call0_v11_at (x1 : (⟨S16384, .i32⟩ : BufTy).Contents (Elt Ideal)) (h : InRange x1) (b : Fin 16384) :
    val_main_call0_v11 (F := Ideal) x1 (ix3 b (0 : Fin 1) (0 : Fin 1)) = 1#1 := by
  rw [val_main_call0_v11_apply, val_main_call0_v7_apply, val_main_call0_v10_apply, call0_v5_at x1 h b,
    val_main_call0_v6_apply, val_main_call0_c_2_apply, val_main_call0_v9_apply, val_main_call0_v8_apply,
    val_main_call0_c_1_apply]
  exact inb_eq _ (h b)

/-- Over (b, 0) the unit axis's one coordinate gives (b, 0, 0). -/
theorem lift_unit (hred : S16384x1x1.Reduces [2] S16384x1) (b : Fin 16384) (k : Fin (S16384x1x1.size 2)) :
    hred.lift (ix2 b (0 : Fin 1)) k = ix3 b (0 : Fin 1) (0 : Fin 1) := by
  have hk : k.val = 0 := Nat.lt_one_iff.mp k.isLt
  funext c; apply Fin.ext
  match c with
  | ⟨0, _⟩ => rfl
  | ⟨1, _⟩ => rfl
  | ⟨2, _⟩ => exact hk

/-- The and-reduction of the in-bounds bits over the unit axis, at (b, 0), is set. -/
theorem call0_v12_at (x1 : (⟨S16384, .i32⟩ : BufTy).Contents (Elt Ideal)) (h : InRange x1) (b : Fin 16384) :
    val_main_call0_v12 (F := Ideal) x1 (ix2 b (0 : Fin 1)) = 1#1 := by
  have hred : S16384x1x1.Reduces [2] S16384x1 := by decide
  unfold val_main_call0_v12
  rw [Host.reduce_eq_fold_single IntOp.andi _ _ reducesTo_S16384x1x1_S16384x1_d2 hred h_S_, val_main_call0_c_3_apply]
  refine fold_andi_one _ _ (fun k => ?_)
  show val_main_call0_v11 (F := Ideal) x1 (hred.lift (ix2 b (0 : Fin 1)) k) = 1#1
  rw [lift_unit hred b k]; exact call0_v11_at x1 h b

/-! ## The two gathers read at an index -/

/-- The gather along the class axis, on the batching axis: row b. -/
theorem own_axis0 (idx : IVec S16384x1x1 32) (b : Fin 16384) :
    (gather_S16384x1000_S16384x1x1_S16384x1_n_1_0_0_1_2_11.operandIdx (ix2 b (0 : Fin 1)) idx 0).val = b.val := by
  have h0 : (0 : Fin 2) ∈ gather_S16384x1000_S16384x1x1_S16384x1_n_1_0_0_1_2_11.operandBatchingDims :=
    List.mem_singleton.mpr rfl
  show gather_S16384x1000_S16384x1x1_S16384x1_n_1_0_0_1_2_11.start (ix2 b (0 : Fin 1)) idx 0
    + gather_S16384x1000_S16384x1x1_S16384x1_n_1_0_0_1_2_11.batchCoord (ix2 b (0 : Fin 1)) 0
    + gather_S16384x1000_S16384x1x1_S16384x1_n_1_0_0_1_2_11.offCoord (ix2 b (0 : Fin 1)) 0 = b.val
  rw [GatherDims.start_batching _ _ idx 0 h0,
    GatherDims.offCoord_eq_zero _ _ 0 (fun hm => ((GatherDims.mem_sKept _ _).mp hm).2 h0), Nat.zero_add, Nat.add_zero]
  rfl

/-- The gather along the class axis, on the collapsed axis: the start index at (b, 0, 0) read signed and clamped. -/
theorem own_axis1 (idx : IVec S16384x1x1 32) (b : Fin 16384) :
    (gather_S16384x1000_S16384x1x1_S16384x1_n_1_0_0_1_2_11.operandIdx (ix2 b (0 : Fin 1)) idx 1).val
      = min (idx (ix3 b (0 : Fin 1) (0 : Fin 1))).toInt.toNat 999 := by
  have hm : (1 : Fin 2) ∈ gather_S16384x1000_S16384x1x1_S16384x1_n_1_0_0_1_2_11.startIndexMap :=
    List.mem_singleton.mpr rfl
  have hc : (1 : Fin 2) ∈ gather_S16384x1000_S16384x1x1_S16384x1_n_1_0_0_1_2_11.collapsedSliceDims :=
    List.mem_singleton.mpr rfl
  have hb : (1 : Fin 2) ∉ gather_S16384x1000_S16384x1x1_S16384x1_n_1_0_0_1_2_11.operandBatchingDims := by decide
  show gather_S16384x1000_S16384x1x1_S16384x1_n_1_0_0_1_2_11.start (ix2 b (0 : Fin 1)) idx 1
    + gather_S16384x1000_S16384x1x1_S16384x1_n_1_0_0_1_2_11.batchCoord (ix2 b (0 : Fin 1)) 1
    + gather_S16384x1000_S16384x1x1_S16384x1_n_1_0_0_1_2_11.offCoord (ix2 b (0 : Fin 1)) 1 = _
  rw [GatherDims.batchCoord_eq_zero _ _ 1 hb,
    GatherDims.offCoord_eq_zero _ _ 1 (fun hm' => ((GatherDims.mem_sKept _ _).mp hm').1 hc), Nat.add_zero]
  unfold GatherDims.start
  rw [dif_pos hm]
  have hsi : gather_S16384x1000_S16384x1x1_S16384x1_n_1_0_0_1_2_11.siIdx (ix2 b (0 : Fin 1))
      ⟨List.idxOf (1 : Fin 2) gather_S16384x1000_S16384x1x1_S16384x1_n_1_0_0_1_2_11.startIndexMap,
        List.idxOf_lt_length_iff.2 hm⟩ = ix3 b (0 : Fin 1) (0 : Fin 1) := by
    funext c; refine Fin.ext ?_
    match c with
    | ⟨0, _⟩ => rfl
    | ⟨1, _⟩ => rfl
    | ⟨2, _⟩ => rfl
  rw [hsi]
  rfl

/-- THE GATHER ALONG THE CLASS AXIS at (b, 0): the operand at (b, the start index at (b, 0, 0) read signed and
    clamped into [0, 999]). -/
theorem gather_own {α : Type} (x : S16384x1000.Idx → α) (idx : IVec S16384x1x1 32) (b : Fin 16384) :
    Host.gather gather_S16384x1000_S16384x1x1_S16384x1_n_1_0_0_1_2_11 x idx (ix2 b (0 : Fin 1))
      = x (ix2 b (⟨min (idx (ix3 b (0 : Fin 1) (0 : Fin 1))).toInt.toNat 999, by omega⟩ : Fin 1000)) := by
  unfold Host.gather
  refine congrArg x (funext fun a => Fin.ext ?_)
  match a with
  | ⟨0, _⟩ => exact own_axis0 idx b
  | ⟨1, _⟩ => exact own_axis1 idx b

/-- The row gather, on the collapsed axis: the start index at (b, 0) read signed and clamped. -/
theorem row_axis0 (idx : IVec S16384x1 32) (b : Fin 16384) (j : Fin 1000) :
    (gather_S1000x1000_S16384x1_S16384x1000_1_0_n_n_0_1_11000.operandIdx (ix2 b j) idx 0).val
      = min (idx (ix2 b (0 : Fin 1))).toInt.toNat 999 := by
  have hm : (0 : Fin 2) ∈ gather_S1000x1000_S16384x1_S16384x1000_1_0_n_n_0_1_11000.startIndexMap :=
    List.mem_singleton.mpr rfl
  have hc : (0 : Fin 2) ∈ gather_S1000x1000_S16384x1_S16384x1000_1_0_n_n_0_1_11000.collapsedSliceDims :=
    List.mem_singleton.mpr rfl
  show gather_S1000x1000_S16384x1_S16384x1000_1_0_n_n_0_1_11000.start (ix2 b j) idx 0
    + gather_S1000x1000_S16384x1_S16384x1000_1_0_n_n_0_1_11000.batchCoord (ix2 b j) 0
    + gather_S1000x1000_S16384x1_S16384x1000_1_0_n_n_0_1_11000.offCoord (ix2 b j) 0 = _
  rw [GatherDims.batchCoord_eq_zero _ _ 0 List.not_mem_nil,
    GatherDims.offCoord_eq_zero _ _ 0 (fun hm' => ((GatherDims.mem_sKept _ _).mp hm').1 hc), Nat.add_zero]
  unfold GatherDims.start
  rw [dif_pos hm]
  have hsi : gather_S1000x1000_S16384x1_S16384x1000_1_0_n_n_0_1_11000.siIdx (ix2 b j)
      ⟨List.idxOf (0 : Fin 2) gather_S1000x1000_S16384x1_S16384x1000_1_0_n_n_0_1_11000.startIndexMap,
        List.idxOf_lt_length_iff.2 hm⟩ = ix2 b (0 : Fin 1) := by
    funext c; refine Fin.ext ?_
    match c with
    | ⟨0, _⟩ => rfl
    | ⟨1, _⟩ => rfl
  rw [hsi]
  rfl

/-- The row gather, on the offset axis: column j. -/
theorem row_axis1 (idx : IVec S16384x1 32) (b : Fin 16384) (j : Fin 1000) :
    (gather_S1000x1000_S16384x1_S16384x1000_1_0_n_n_0_1_11000.operandIdx (ix2 b j) idx 1).val = j.val := by
  have hm : (1 : Fin 2) ∉ gather_S1000x1000_S16384x1_S16384x1000_1_0_n_n_0_1_11000.startIndexMap := by decide
  show gather_S1000x1000_S16384x1_S16384x1000_1_0_n_n_0_1_11000.start (ix2 b j) idx 1
    + gather_S1000x1000_S16384x1_S16384x1000_1_0_n_n_0_1_11000.batchCoord (ix2 b j) 1
    + gather_S1000x1000_S16384x1_S16384x1000_1_0_n_n_0_1_11000.offCoord (ix2 b j) 1 = j.val
  rw [GatherDims.batchCoord_eq_zero _ _ 1 List.not_mem_nil, Nat.add_zero]
  unfold GatherDims.start
  rw [dif_neg hm, Nat.zero_add]
  rfl

/-- THE ROW GATHER at (b, j): the operand at (the start index at (b, 0) read signed and clamped into [0, 999], j). -/
theorem gather_row {α : Type} (x : S1000x1000.Idx → α) (idx : IVec S16384x1 32) (b : Fin 16384) (j : Fin 1000) :
    Host.gather gather_S1000x1000_S16384x1_S16384x1000_1_0_n_n_0_1_11000 x idx (ix2 b j)
      = x (ix2 (⟨min (idx (ix2 b (0 : Fin 1))).toInt.toNat 999, by omega⟩ : Fin 1000) j) := by
  unfold Host.gather
  refine congrArg x (funext fun a => Fin.ext ?_)
  match a with
  | ⟨0, _⟩ => exact row_axis0 idx b j
  | ⟨1, _⟩ => exact row_axis1 idx b j

/-! ## The distance to the own center -/

/-- The gather along the class axis at (b, 0) reads stage 15 at (b, the class of row b). -/
theorem call0_v13_at (x0 : (⟨S16384x1024, .f32⟩ : BufTy).Contents (Elt Ideal)) (x1 : (⟨S16384, .i32⟩ : BufTy).Contents (Elt Ideal))
    (x2 : (⟨S1000x1024, .f32⟩ : BufTy).Contents (Elt Ideal)) (h : InRange x1) (b : Fin 16384) :
    val_main_call0_v13 (F := Ideal) x0 x1 x2 (ix2 b (0 : Fin 1)) = dxc x0 x2 b (classOf x1 b) := by
  unfold val_main_call0_v13
  refine (gather_own _ _ b).trans ?_
  refine Eq.trans (congrArg (val_main_v15 (F := Ideal) x0 x2) ?_) (RefDist.dxc_apply x0 x2 b (classOf x1 b))
  refine congrArg (ix2 b) (Fin.ext ?_)
  show min (val_main_call0_v5 (F := Ideal) x1 (ix3 b (0 : Fin 1) (0 : Fin 1))).toInt.toNat 999 = (classOf x1 b).val
  rw [call0_v5_at x1 h b, classOf_val h b]; exact clamp_label _ (h b)

/-- Stage 36 at b: the half squared distance of row b to its own center (the fill value is never chosen). -/
theorem v36_at (x0 : (⟨S16384x1024, .f32⟩ : BufTy).Contents (Elt Ideal)) (x1 : (⟨S16384, .i32⟩ : BufTy).Contents (Elt Ideal))
    (x2 : (⟨S1000x1024, .f32⟩ : BufTy).Contents (Elt Ideal)) (h : InRange x1) (b : Fin 16384) :
    val_main_v36 (F := Ideal) x0 x1 x2 (ix1 b) = dxc x0 x2 b (classOf x1 b) := by
  rw [val_main_v36_apply]
  have e : idx_main_v36 (ix1 b) = ix2 b (0 : Fin 1) := by
    funext a
    match a with
    | ⟨0, _⟩ => exact Fin.ext (Nat.div_one _)
    | ⟨1, _⟩ => rfl
  rw [e, val_main_v35_apply, call0_v12_at x1 h b, select_one]
  exact call0_v13_at x0 x1 x2 h b

/-! ## The two minima over the other classes -/

/-- The mask's test at (b, j), the label word of row b being the word of j, is j being the class of row b. -/
theorem mask_iff (x1 : (⟨S16384, .i32⟩ : BufTy).Contents (Elt Ideal)) (h : InRange x1) (b : Fin 16384) (j : Fin 1000) :
    x1 (ix1 b) = BitVec.ofNat 32 j.val ↔ j = classOf x1 b := by
  constructor
  · intro e
    have := (ofNat_eq_ofNat_iff (Nat.lt_trans (classOf x1 b).isLt (by decide)) (Nat.lt_trans j.isLt (by decide))).1
      ((ofNat_classOf h b).trans e)
    exact Fin.ext this.symm
  · intro e; rw [e]; exact (ofNat_classOf h b).symm

/-- Over b the class axis's coordinate k gives (b, k). -/
theorem lift_row (hred : S16384x1000.Reduces [1] S16384) (b : Fin 16384) (k : Fin (S16384x1000.size 1)) :
    hred.lift (ix1 b) k = ix2 b (⟨k.val, k.isLt⟩ : Fin 1000) := by
  funext c; apply Fin.ext
  match c with
  | ⟨0, _⟩ => rfl
  | ⟨1, _⟩ => rfl

/-- A minimum-reduction over the class axis from +∞, at b, is the fold of min from ⊤ over row b. -/
theorem rowMin (y : (⟨S16384x1000, .f32⟩ : BufTy).Contents (Elt Ideal)) (init : (⟨S_, .f32⟩ : BufTy).Contents (Elt Ideal))
    (hi : init (Shape.Idx.first h_S_) = (⊤ : EReal)) (b : Fin 16384) :
    Host.reduce (FloatOps.minimumf (F := Ideal) (φ := .f32)) y init reducesTo_S16384x1000_S16384_d1 h_S_ (ix1 b)
      = (Finset.univ : Finset (Fin 1000)).fold min (⊤ : EReal) (fun j => y (ix2 b j)) := by
  have hred : S16384x1000.Reduces [1] S16384 := by decide
  rw [Host.reduce_eq_fold_single (FloatOps.minimumf (F := Ideal) (φ := .f32)) y init reducesTo_S16384x1000_S16384_d1 hred h_S_, hi]
  have hf : (y ∘ hred.lift (ix1 b)) = fun k : Fin 1000 => y (ix2 b k) := funext fun k => congrArg y (lift_row hred b k)
  exact congrArg (fun f => Finset.fold min (⊤ : EReal) f (Finset.univ : Finset (Fin 1000))) hf

/-- Stage 37 at (b, j): +∞ at the own class, else the half squared distance of row b to center j. -/
theorem v37_at (x0 : (⟨S16384x1024, .f32⟩ : BufTy).Contents (Elt Ideal)) (x1 : (⟨S16384, .i32⟩ : BufTy).Contents (Elt Ideal))
    (x2 : (⟨S1000x1024, .f32⟩ : BufTy).Contents (Elt Ideal)) (h : InRange x1) (b : Fin 16384) (j : Fin 1000) :
    val_main_v37 (F := Ideal) x0 x1 x2 (ix2 b j) = if j = classOf x1 b then (⊤ : EReal) else dxc x0 x2 b j := by
  rw [val_main_v37_apply]
  by_cases hj : j = classOf x1 b
  · rw [if_pos hj, (RefDist.mask_apply x1 b j).2 ((mask_iff x1 h b j).2 hj), select_one, val_main_call1_v0_apply,
      val_main_cst_5_apply]
    exact ofBits_inf
  · rw [if_neg hj, eq_zero_of_ne_one (fun e => hj ((mask_iff x1 h b j).1 ((RefDist.mask_apply x1 b j).1 e))), select_zero]
    exact RefDist.dxc_apply x0 x2 b j

/-- Stage 38 at b: the least half squared distance of row b to a center of another class. -/
theorem v38_at (x0 : (⟨S16384x1024, .f32⟩ : BufTy).Contents (Elt Ideal)) (x1 : (⟨S16384, .i32⟩ : BufTy).Contents (Elt Ideal))
    (x2 : (⟨S1000x1024, .f32⟩ : BufTy).Contents (Elt Ideal)) (h : InRange x1) (b : Fin 16384) :
    val_main_v38 (F := Ideal) x0 x1 x2 (ix1 b) = minOther (dxc x0 x2 b) (classOf x1 b) := by
  unfold val_main_v38
  refine (rowMin _ _ ((val_main_cst_6_apply _).trans ofBits_inf) b).trans ?_
  unfold minOther
  exact congrArg (fun f => Finset.fold min (⊤ : EReal) f (Finset.univ : Finset (Fin 1000)))
    (funext fun j => v37_at x0 x1 x2 h b j)

/-- Stage 44 at (b, 0): the label of row b (the second negative-index adjustment is the identity too). -/
theorem v44_at (x1 : (⟨S16384, .i32⟩ : BufTy).Contents (Elt Ideal)) (h : InRange x1) (b : Fin 16384) :
    val_main_v44 (F := Ideal) x1 (ix2 b (0 : Fin 1)) = x1 (ix1 b) := by
  rw [val_main_v44_apply]
  have e : idx_main_v44 (ix2 b (0 : Fin 1)) = ix1 b := funext fun a => by match a with | ⟨0, _⟩ => rfl
  rw [e, val_main_v43_apply, val_main_v40_apply, val_main_v42_apply, val_main_v39_apply, val_main_c_apply,
    val_main_v41_apply, val_main_c_7_apply]
  exact adjust_eq _ (h b)

/-- Stage 45 at (b, j): the half squared distance between the own center of row b and center j. -/
theorem v45_at (x1 : (⟨S16384, .i32⟩ : BufTy).Contents (Elt Ideal)) (x2 : (⟨S1000x1024, .f32⟩ : BufTy).Contents (Elt Ideal))
    (h : InRange x1) (b : Fin 16384) (j : Fin 1000) :
    val_main_v45 (F := Ideal) x1 x2 (ix2 b j) = dcc x2 (classOf x1 b) j := by
  unfold val_main_v45
  refine (gather_row _ _ b j).trans ?_
  refine Eq.trans (congrArg (val_main_v27 (F := Ideal) x2) ?_) (RefDist.dcc_apply x2 (classOf x1 b) j)
  refine congrArg (fun i : Fin 1000 => ix2 i j) (Fin.ext ?_)
  show min (val_main_v44 (F := Ideal) x1 (ix2 b (0 : Fin 1))).toInt.toNat 999 = (classOf x1 b).val
  rw [v44_at x1 h b, classOf_val h b]; exact clamp_label _ (h b)

/-- Stage 46 at (b, j): +∞ at the own class, else the half squared distance between the own center and center j. -/
theorem v46_at (x1 : (⟨S16384, .i32⟩ : BufTy).Contents (Elt Ideal)) (x2 : (⟨S1000x1024, .f32⟩ : BufTy).Contents (Elt Ideal))
    (h : InRange x1) (b : Fin 16384) (j : Fin 1000) :
    val_main_v46 (F := Ideal) x1 x2 (ix2 b j) = if j = classOf x1 b then (⊤ : EReal) else dcc x2 (classOf x1 b) j := by
  rw [val_main_v46_apply]
  by_cases hj : j = classOf x1 b
  · rw [if_pos hj, (RefDist.mask_apply x1 b j).2 ((mask_iff x1 h b j).2 hj), select_one, val_main_call2_v0_apply,
      val_main_cst_8_apply]
    exact ofBits_inf
  · rw [if_neg hj, eq_zero_of_ne_one (fun e => hj ((mask_iff x1 h b j).1 ((RefDist.mask_apply x1 b j).1 e))), select_zero]
    exact v45_at x1 x2 h b j

/-- Stage 47 at b: the least half squared distance between the own center of row b and another center. -/
theorem v47_at (x1 : (⟨S16384, .i32⟩ : BufTy).Contents (Elt Ideal)) (x2 : (⟨S1000x1024, .f32⟩ : BufTy).Contents (Elt Ideal))
    (h : InRange x1) (b : Fin 16384) :
    val_main_v47 (F := Ideal) x1 x2 (ix1 b) = minOther (dcc x2 (classOf x1 b)) (classOf x1 b) := by
  unfold val_main_v47
  refine (rowMin _ _ ((val_main_cst_9_apply _).trans ofBits_inf) b).trans ?_
  unfold minOther
  exact congrArg (fun f => Finset.fold min (⊤ : EReal) f (Finset.univ : Finset (Fin 1000)))
    (funext fun j => v46_at x1 x2 h b j)

/-! ## The loss of a row, and the mean -/

/-- Stage 55 at b: the two rectified terms of row b, summed, are its loss at its class. -/
theorem v55_at (x0 : (⟨S16384x1024, .f32⟩ : BufTy).Contents (Elt Ideal)) (x1 : (⟨S16384, .i32⟩ : BufTy).Contents (Elt Ideal))
    (x2 : (⟨S1000x1024, .f32⟩ : BufTy).Contents (Elt Ideal)) (h : InRange x1) (b : Fin 16384) :
    val_main_v55 (F := Ideal) x0 x1 x2 (ix1 b) = loss x0 x2 b (classOf x1 b) := by
  rw [val_main_v55_apply, val_main_v51_apply, val_main_v54_apply, val_main_v50_apply, val_main_v53_apply,
    val_main_v49_apply, v36_at x0 x1 x2 h b, v38_at x0 x1 x2 h b, v47_at x1 x2 h b,
    val_main_v48_apply, val_main_cst_10_apply, val_main_call3_v0_apply, val_main_call3_cst_apply,
    val_main_v52_apply, val_main_cst_11_apply, val_main_call4_v0_apply, val_main_call4_cst_apply]
  simp only [Ideal.addf_def, Ideal.subf_def, Ideal.maximumf_def, Ideal.ofBits_def, Ideal.ofBits_zero_f32]
  rfl

/-- The reference's last stage is the mean loss of the batch at the labels' classes. -/
theorem val_eq_total (x0 : (⟨S16384x1024, .f32⟩ : BufTy).Contents (Elt Ideal)) (x1 : (⟨S16384, .i32⟩ : BufTy).Contents (Elt Ideal))
    (x2 : (⟨S1000x1024, .f32⟩ : BufTy).Contents (Elt Ideal)) (h : InRange x1) :
    val_main_v57 (F := Ideal) x0 x1 x2 = fun _ => total x0 (classOf x1) x2 := by
  funext i
  have hs : ∑ j : S16384.Idx, val_main_v55 (F := Ideal) x0 x1 x2 j = ∑ b : Fin 16384, loss x0 x2 b (classOf x1 b) := by
    refine Fintype.sum_equiv ⟨fun j => j 0, fun b => ix1 b, fun j => (eq_ix1 j).symm, fun _ => rfl⟩ _ _ (fun j => ?_)
    exact (congrArg (val_main_v55 (F := Ideal) x0 x1 x2) (eq_ix1 j)).trans (v55_at x0 x1 x2 h (j 0))
  rw [val_main_v57_apply, val_main_v56_apply, val_main_cst_12_apply, val_main_cst_13_apply, hs]
  simp only [Ideal.hostDivf_def, Ideal.ofBits_def, Ideal.ofBits_zero_f32, zero_add]
  rfl

end Cert.ReferenceIdeal.RefTotal

end
-- ==== Proof.KernelWhole.lean ====
/-
  The kernel program's result as one function of its three argument arrays.

  Before the first launch the host pads the 1000 centers with 24 rows (`cpad`), rounds them to bf16 (`cbf`) and reshapes
  the labels to a column (`lab2`). The first launch, one grid point over the whole padded matrix, leaves two rows: the
  centers' squared lengths and, per center, the least half squared distance to another center. The second launch runs
  16 grid points; point t reads rows 1024·t … 1024·t + 1023 of the batch and of the label column, and the three
  center arrays whole, and writes lanes 128·t … 128·t + 127 of a row of 2048 lanes (`outArr`). After it the host sums
  the 2048 lanes and divides by 128 and by 16384 (`kval`).
-/
import proofs.«409714_j15917148799612_3_alg».proof.Proof.KernelRun
import Idealize.ShloMosaic.Lib.StableHlo.Run
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F] [Named F]

/-! ## The host's preparation and the two launches' results, as functions of the arguments -/

/-- The centers padded to 1024 rows with the converted integer zero. -/
def cpad (cen : Vec F S1000x1024 .f32) : Vec F S1024x1024 .f32 :=
  pad S1024x1024 ![0, 0] ![24, 0] ![0, 0] cen (sitofp (F := F) .f32 (constantI S_ 32 0#32))
    pads_S1000x1024_S1024x1024_0240_000 h_S_

/-- The padded centers rounded to bf16. -/
def cbf (cen : Vec F S1000x1024 .f32) : Vec F S1024x1024 .bf16 :=
  truncf .bf16 (cpad cen) bitsLt_bf16_f32

/-- The labels as a column. -/
def lab2 (lab : Vec F S16384 .i32) : Vec F S16384x1 .i32 :=
  shapeCast S16384x1 lab shapeCasts_S16384_S16384x1

/-- Rows 1024·t … 1024·t + 1023 of an array of 16384 rows of 1024 columns. -/
def xblk (x : Vec F S16384x1024 .f32) (t : Fin 16) : Vec F S1024x1024 .f32 :=
  fun y =>
    have h0 : (y 0).val < 1024 := (y 0).isLt
    have h1 : (y 1).val < 1024 := (y 1).isLt
    x (ix2 (⟨t.val * 1024 + (y 0).val, by have := t.isLt; omega⟩ : Fin 16384) (⟨(y 1).val, h1⟩ : Fin 1024))

/-- Rows 1024·t … 1024·t + 1023 of a column of 16384 words. -/
def lblk (l : Vec F S16384x1 .i32) (t : Fin 16) : Vec F S1024x1 .i32 :=
  fun y =>
    have h0 : (y 0).val < 1024 := (y 0).isLt
    have h1 : (y 1).val < 1 := (y 1).isLt
    l (ix2 (⟨t.val * 1024 + (y 0).val, by have := t.isLt; omega⟩ : Fin 16384) (⟨(y 1).val, h1⟩ : Fin 1))

/-- What grid point t of the second launch stores, from the five arrays the launch finds: the batch, the label
    column, the rounded padded centers, the row of squared center lengths and the row of center terms. -/
def blockOutOf (X : Vec F S16384x1024 .f32) (L : Vec F S16384x1 .i32) (CB : Vec F S1024x1024 .bf16)
    (C2 : Vec F S1x1024 .f32) (CN : Vec F S1x1024 .f32) (t : Fin 16) : Vec F S1x128 .f32 :=
  k1_pay1 (k1_pay3 (lblk L t)) (k1_pay4 (xblk X t) CB C2 (lblk L t)) (k1_pay5 (xblk X t) CB C2 (lblk L t))
    (k1_pay6 CN) (Scalar.ofBits .f32 0x00000000#32)

/-- The row of 2048 lanes after the second launch: lane i holds lane i mod 128 of what point i / 128 stored. -/
def outArrOf (X : Vec F S16384x1024 .f32) (L : Vec F S16384x1 .i32) (CB : Vec F S1024x1024 .bf16)
    (C2 : Vec F S1x1024 .f32) (CN : Vec F S1x1024 .f32) : Vec F S1x2048 .f32 :=
  fun i =>
    have h1 : (i 1).val < 2048 := (i 1).isLt
    blockOutOf X L CB C2 CN (⟨(i 1).val / 128, by omega⟩ : Fin 16)
      (ix2 (0 : Fin 1) (⟨(i 1).val % 128, Nat.mod_lt _ (by decide)⟩ : Fin 128))

/-- What grid point t stores, as a function of the program's three arguments. -/
def blockOut (x : Vec F S16384x1024 .f32) (lab : Vec F S16384 .i32) (cen : Vec F S1000x1024 .f32) (t : Fin 16) :
    Vec F S1x128 .f32 :=
  blockOutOf x (lab2 lab) (cbf cen) (k0_pay3 (cpad cen)) (k0_pay4 (cpad cen)) t

/-- The row of 2048 lanes, as a function of the program's three arguments. -/
def outArr (x : Vec F S16384x1024 .f32) (lab : Vec F S16384 .i32) (cen : Vec F S1000x1024 .f32) :
    Vec F S1x2048 .f32 :=
  outArrOf x (lab2 lab) (cbf cen) (k0_pay3 (cpad cen)) (k0_pay4 (cpad cen))

/-- The program's result: the lanes' sum divided by 128 and by 16384. -/
def kval (x : Vec F S16384x1024 .f32) (lab : Vec F S16384 .i32) (cen : Vec F S1000x1024 .f32) : Vec F S_ .f32 :=
  Host.divf (Host.divf (Host.reduceAdd (outArr x lab cen) (constant S_ .f32 0x00000000#32) reducesTo_S1x2048_S_d0_1 h_S_)
    (constant S_ .f32 0x43000000#32)) (constant S_ .f32 0x46800000#32)

variable (m : (ℓ : Loc nD τ sig) → Buf (Elt F) ℓ) (ρ : Dev nD → PrngReg)

/-! ## The host's tail: the result buffer from the second launch's output array -/

/-- After the last stretch of host operations the result buffer holds the lanes' sum of the second launch's output
    array, divided by 128 and by 16384. -/
theorem W6_result (c : Dev nD) :
    W6 m ρ c (Proc.devRef .tc main_v7)
      = Host.divf (Host.divf (Host.reduceAdd (W5 m ρ c (Proc.devRef .tc main_v4)) (constant S_ .f32 0x00000000#32)
          reducesTo_S1x2048_S_d0_1 h_S_) (constant S_ .f32 0x43000000#32)) (constant S_ .f32 0x46800000#32) := by
  show StableHlo.after hostOps2 (W5 m ρ c) (Proc.devRef .tc main_v7) = _
  after_results

/-! ## The two launches' output arrays, at any contents `V` the launch is entered with -/

section Regions

variable (V : (c : Dev nD) → (b : Ref sig .tc) → Buf (Elt F) ((c : Thread nD τ).loc b))

theorem hz : (![0, 0] : Fin 2 → Nat) = fun _ => 0 := funext fun a => by fin_cases a <;> rfl

/-- The first launch's index maps: its one point reads and writes every array whole. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The second launch's index maps: point t reads block row t of the batch and of the label column, the three center
    arrays whole, and writes block column t of the lane row. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val :=
  (by decide +kernel : ∀ t : Fin grid1.N, _)

theorem tlt (t : Fin cfg1.N) : t.val < 16 := N_1 ▸ t.isLt

/-! ### The first launch -/

/-- Its input block is the whole padded matrix. -/
theorem iblk0_0 (c : Dev nD) (t : Fin cfg0.N) : iblk0 V c 0 t = V c main_v0 := by
  funext y
  obtain ⟨e0, e1, -⟩ := idx0 t
  have he : ((cfg0.win 0).blk t).view.emb y = y := by
    funext a; apply Fin.ext
    match a with
    | ⟨0, _⟩ => show win0_0.index t (0 : Fin 2) * 1024 + 1 * (y 0).val = (y 0).val; omega
    | ⟨1, _⟩ => show win0_0.index t (1 : Fin 2) * 1024 + 1 * (y 1).val = (y 1).val; omega
  show V c main_v0 (((cfg0.win 0).blk t).view.emb y) = V c main_v0 y
  rw [he]

/-- A row of 1024 entries cut to the one point's block of window 1 is that block of the row: the block is the row. -/
theorem whole0_1 (t : Fin cfg0.N) (P : Vec F S1x1024 .f32) :
    (cfg0.win 1).cut (grid0.coords t) P = ((cfg0.win 1).blk t).view.read (Elt F) P := by
  obtain ⟨-, -, e0, e1, -⟩ := idx0 t
  funext y
  have he : ((cfg0.win 1).blk t).view.emb y = y := by
    funext a; apply Fin.ext
    match a with
    | ⟨0, _⟩ => show win0_1.index t (0 : Fin 2) * 1 + 1 * (y 0).val = (y 0).val; omega
    | ⟨1, _⟩ => show win0_1.index t (1 : Fin 2) * 1024 + 1 * (y 1).val = (y 1).val; omega
  show P y = P (((cfg0.win 1).blk t).view.emb y)
  rw [he]

/-- The same for window 2. -/
theorem whole0_2 (t : Fin cfg0.N) (P : Vec F S1x1024 .f32) :
    (cfg0.win 2).cut (grid0.coords t) P = ((cfg0.win 2).blk t).view.read (Elt F) P := by
  obtain ⟨-, -, -, -, e0, e1⟩ := idx0 t
  funext y
  have he : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 1024 + 1 * (y 1).val = (y 1).val; omega
  show P y = P (((cfg0.win 2).blk t).view.emb y)
  rw [he]

/-- What its point writes back to the row of squared lengths is that row's block of the payload of the whole matrix. -/
theorem flushed0_1 (c : Dev nD) (t : Fin cfg0.N) :
    (dat0 V c).flushed 1 t = ((cfg0.win 1).blk t).view.read (Elt F) (k0_pay3 (V c main_v0)) := by
  show (cfg0.win 1).cut (grid0.coords t) ((dat0 V c).after 1 t) = _
  rw [after0_1]
  unfold out0_1
  rw [View.canon_unit_zero hz]
  simp only [View.ld_unit_zero (S := S1024x1024) hz]
  rw [iblk0_0 V c t]
  exact whole0_1 t (k0_pay3 (V c main_v0))

/-- The same for the row of center terms. -/
theorem flushed0_2 (c : Dev nD) (t : Fin cfg0.N) :
    (dat0 V c).flushed 2 t = ((cfg0.win 2).blk t).view.read (Elt F) (k0_pay4 (V c main_v0)) := by
  show (cfg0.win 2).cut (grid0.coords t) ((dat0 V c).after 2 t) = _
  rw [after0_2]
  unfold out0_2
  rw [View.canon_unit_zero hz]
  simp only [View.ld_unit_zero (S := S1024x1024) hz]
  rw [iblk0_0 V c t]
  exact whole0_2 t (k0_pay4 (V c main_v0))

/-- An index of a row of 1024 entries is in the one point's block of window 1. -/
theorem cover0_1 (i : S1x1024.Idx) :
    ∃ t : Fin cfg0.N, (cfg0.win 1).flush t = true ∧ i ∈ ((cfg0.win 1).blk t).view.set := by
  have hi0 : (i 0).val < 1 := (i 0).isLt
  have hi1 : (i 1).val < 1024 := (i 1).isLt
  obtain ⟨-, -, e0, e1, -⟩ := idx0 t0_0
  refine ⟨t0_0, flush0_1 t0_0, ?_⟩
  show i ∈ ((View.whole main_v3_0).slice (win0_1.rect t0_0)).set
  rw [View.set_slice_whole, Rect.mem_set_unit]
  intro a
  match a with
  | ⟨0, _⟩ => show win0_1.index t0_0 (0 : Fin 2) * 1 ≤ (i 0).val ∧ (i 0).val < win0_1.index t0_0 (0 : Fin 2) * 1 + 1; omega
  | ⟨1, _⟩ => show win0_1.index t0_0 (1 : Fin 2) * 1024 ≤ (i 1).val ∧ (i 1).val < win0_1.index t0_0 (1 : Fin 2) * 1024 + 1024; omega

/-- … and of window 2. -/
theorem cover0_2 (i : S1x1024.Idx) :
    ∃ t : Fin cfg0.N, (cfg0.win 2).flush t = true ∧ i ∈ ((cfg0.win 2).blk t).view.set := by
  have hi0 : (i 0).val < 1 := (i 0).isLt
  have hi1 : (i 1).val < 1024 := (i 1).isLt
  obtain ⟨-, -, -, -, e0, e1⟩ := idx0 t0_0
  refine ⟨t0_0, flush0_2 t0_0, ?_⟩
  show i ∈ ((View.whole main_v3_1).slice (win0_2.rect t0_0)).set
  rw [View.set_slice_whole, Rect.mem_set_unit]
  intro a
  match a with
  | ⟨0, _⟩ => show win0_2.index t0_0 (0 : Fin 2) * 1 ≤ (i 0).val ∧ (i 0).val < win0_2.index t0_0 (0 : Fin 2) * 1 + 1; omega
  | ⟨1, _⟩ => show win0_2.index t0_0 (1 : Fin 2) * 1024 ≤ (i 1).val ∧ (i 1).val < win0_2.index t0_0 (1 : Fin 2) * 1024 + 1024; omega

/-- After the first launch the row of squared lengths is the first payload of the padded matrix as entered. -/
theorem arr0_1 (c : Dev nD) : (dat0 V c).arrAt 1 cfg0.N = k0_pay3 (V c main_v0) :=
  (dat0 V c).arrAt_eq_of_cover 1 _ (fun t _ => flushed0_1 V c t) cover0_1

/-- … and the row of center terms the second. -/
theorem arr0_2 (c : Dev nD) : (dat0 V c).arrAt 2 cfg0.N = k0_pay4 (V c main_v0) :=
  (dat0 V c).arrAt_eq_of_cover 2 _ (fun t _ => flushed0_2 V c t) cover0_2

/-! ### The second launch -/

/-- Its batch block at point t is rows 1024·t … of the batch as entered. -/
theorem iblk1_0 (c : Dev nD) (t : Fin cfg1.N) : iblk1 V c 0 t = xblk (V c main_arg0) ⟨t.val, tlt t⟩ := by
  funext y
  obtain ⟨e0, e1, -⟩ := idx1 t
  have h0 : (y 0).val < 1024 := (y 0).isLt
  have h1 : (y 1).val < 1024 := (y 1).isLt
  have he : ((cfg1.win 0).blk t).view.emb y
      = ix2 (⟨t.val * 1024 + (y 0).val, by have := tlt t; omega⟩ : Fin 16384) (⟨(y 1).val, h1⟩ : Fin 1024) := by
    funext a; apply Fin.ext
    match a with
    | ⟨0, _⟩ => show win1_0.index t (0 : Fin 2) * 1024 + 1 * (y 0).val = t.val * 1024 + (y 0).val; omega
    | ⟨1, _⟩ => show win1_0.index t (1 : Fin 2) * 1024 + 1 * (y 1).val = (y 1).val; omega
  show V c main_arg0 (((cfg1.win 0).blk t).view.emb y)
    = V c main_arg0 (ix2 (⟨t.val * 1024 + (y 0).val, _⟩ : Fin 16384) (⟨(y 1).val, _⟩ : Fin 1024))
  rw [he]

/-- Its label block at point t is rows 1024·t … of the label column as entered. -/
theorem iblk1_1 (c : Dev nD) (t : Fin cfg1.N) : iblk1 V c 1 t = lblk (V c main_v2) ⟨t.val, tlt t⟩ := by
  funext y
  obtain ⟨-, -, e0, e1, -⟩ := idx1 t
  have h0 : (y 0).val < 1024 := (y 0).isLt
  have h1 : (y 1).val < 1 := (y 1).isLt
  have he : ((cfg1.win 1).blk t).view.emb y
      = ix2 (⟨t.val * 1024 + (y 0).val, by have := tlt t; omega⟩ : Fin 16384) (⟨(y 1).val, h1⟩ : Fin 1) := by
    funext a; apply Fin.ext
    match a with
    | ⟨0, _⟩ => show win1_1.index t (0 : Fin 2) * 1024 + 1 * (y 0).val = t.val * 1024 + (y 0).val; omega
    | ⟨1, _⟩ => show win1_1.index t (1 : Fin 2) * 1 + 1 * (y 1).val = (y 1).val; omega
  show V c main_v2 (((cfg1.win 1).blk t).view.emb y)
    = V c main_v2 (ix2 (⟨t.val * 1024 + (y 0).val, _⟩ : Fin 16384) (⟨(y 1).val, _⟩ : Fin 1))
  rw [he]

/-- The three center arrays are read whole at every point. -/
theorem iblk1_2 (c : Dev nD) (t : Fin cfg1.N) : iblk1 V c 2 t = V c main_v1 := by
  funext y
  obtain ⟨-, -, -, -, e0, e1, -⟩ := idx1 t
  have he : ((cfg1.win 2).blk t).view.emb y = y := by
    funext a; apply Fin.ext
    match a with
    | ⟨0, _⟩ => show win1_2.index t (0 : Fin 2) * 1024 + 1 * (y 0).val = (y 0).val; omega
    | ⟨1, _⟩ => show win1_2.index t (1 : Fin 2) * 1024 + 1 * (y 1).val = (y 1).val; omega
  show V c main_v1 (((cfg1.win 2).blk t).view.emb y) = V c main_v1 y
  rw [he]

theorem iblk1_3 (c : Dev nD) (t : Fin cfg1.N) : iblk1 V c 3 t = V c main_v3_0 := by
  funext y
  obtain ⟨-, -, -, -, -, -, e0, e1, -⟩ := idx1 t
  have he : ((cfg1.win 3).blk t).view.emb y = y := by
    funext a; apply Fin.ext
    match a with
    | ⟨0, _⟩ => show win1_3.index t (0 : Fin 2) * 1 + 1 * (y 0).val = (y 0).val; omega
    | ⟨1, _⟩ => show win1_3.index t (1 : Fin 2) * 1024 + 1 * (y 1).val = (y 1).val; omega
  show V c main_v3_0 (((cfg1.win 3).blk t).view.emb y) = V c main_v3_0 y
  rw [he]

theorem iblk1_4 (c : Dev nD) (t : Fin cfg1.N) : iblk1 V c 4 t = V c main_v3_1 := by
  funext y
  obtain ⟨-, -, -, -, -, -, -, -, e0, e1, -⟩ := idx1 t
  have he : ((cfg1.win 4).blk t).view.emb y = y := by
    funext a; apply Fin.ext
    match a with
    | ⟨0, _⟩ => show win1_4.index t (0 : Fin 2) * 1 + 1 * (y 0).val = (y 0).val; omega
    | ⟨1, _⟩ => show win1_4.index t (1 : Fin 2) * 1024 + 1 * (y 1).val = (y 1).val; omega
  show V c main_v3_1 (((cfg1.win 4).blk t).view.emb y) = V c main_v3_1 y
  rw [he]

/-- The lane row at lane 128·t + q is lane q of what point t stores. -/
theorem outArrOf_at (X : Vec F S16384x1024 .f32) (L : Vec F S16384x1 .i32) (CB : Vec F S1024x1024 .bf16)
    (C2 : Vec F S1x1024 .f32) (CN : Vec F S1x1024 .f32) (t : Fin 16) (q : Fin 128) (i : S1x2048.Idx)
    (hi : (i 1).val = t.val * 128 + q.val) :
    outArrOf X L CB C2 CN i = blockOutOf X L CB C2 CN t (ix2 (0 : Fin 1) q) := by
  have key : ∀ (t' : Fin 16) (q' : Fin 128), t' = t → q' = q →
      blockOutOf X L CB C2 CN t' (ix2 (0 : Fin 1) q') = blockOutOf X L CB C2 CN t (ix2 (0 : Fin 1) q) := by
    rintro _ _ rfl rfl; rfl
  have hq := q.isLt
  exact key _ _ (Fin.ext (by show (i 1).val / 128 = t.val; omega)) (Fin.ext (by show (i 1).val % 128 = q.val; omega))

/-- A block of 128 lanes that is what point t stores, cut to point t's block of the lane row, is that block of the lane
    row: for any five arrays. -/
theorem blk1_5 (t : Fin cfg1.N) (X : Vec F S16384x1024 .f32) (L : Vec F S16384x1 .i32) (CB : Vec F S1024x1024 .bf16)
    (C2 : Vec F S1x1024 .f32) (CN : Vec F S1x1024 .f32) (B : Vec F S1x128 .f32)
    (hB : B = blockOutOf X L CB C2 CN ⟨t.val, tlt t⟩) :
    (cfg1.win 5).cut (grid1.coords t) B = ((cfg1.win 5).blk t).view.read (Elt F) (outArrOf X L CB C2 CN) := by
  obtain ⟨-, -, -, -, -, -, -, -, -, -, e0, e1⟩ := idx1 t
  funext y
  have h0 : (y 0).val < 1 := (y 0).isLt
  have h1 : (y 1).val < 128 := (y 1).isLt
  have hy : y = ix2 (0 : Fin 1) (⟨(y 1).val, h1⟩ : Fin 128) := by
    funext a; apply Fin.ext
    match a with
    | ⟨0, _⟩ => show (y 0).val = 0; omega
    | ⟨1, _⟩ => rfl
  have hi : ((((cfg1.win 5).blk t).view.emb y) 1).val = t.val * 128 + (y 1).val := by
    show win1_5.index t (1 : Fin 2) * 128 + 1 * (y 1).val = t.val * 128 + (y 1).val; omega
  show B y = outArrOf X L CB C2 CN (((cfg1.win 5).blk t).view.emb y)
  rw [outArrOf_at X L CB C2 CN ⟨t.val, tlt t⟩ ⟨(y 1).val, h1⟩ _ hi, ← hB]
  exact congrArg B hy

/-- What point t writes back is its block of the lane row of the five arrays as entered. -/
theorem flushed1_5 (c : Dev nD) (t : Fin cfg1.N) :
    (dat1 V c).flushed 5 t = ((cfg1.win 5).blk t).view.read (Elt F)
      (outArrOf (V c main_arg0) (V c main_v2) (V c main_v1) (V c main_v3_0) (V c main_v3_1)) := by
  show (cfg1.win 5).cut (grid1.coords t) ((dat1 V c).after 5 t) = _
  rw [after1_5]
  unfold out1_5
  rw [View.canon_unit_zero hz]
  simp only [View.ld_unit_zero (S := S1024x1024) hz, View.ld_unit_zero (S := S1024x1) hz,
    View.ld_unit_zero (S := S1x1024) hz]
  rw [iblk1_0 V c t, iblk1_1 V c t, iblk1_2 V c t, iblk1_3 V c t, iblk1_4 V c t]
  refine blk1_5 t (V c main_arg0) (V c main_v2) (V c main_v1) (V c main_v3_0) (V c main_v3_1) _ ?_
  rfl

/-- Lane i of the row of 2048 lanes is in the block of point i / 128. -/
theorem cover1_5w (i : S1x2048.Idx) :
    ∃ t : Fin cfg1.N, (cfg1.win 5).flush t = true ∧ i ∈ ((cfg1.win 5).blk t).view.set := by
  have hi0 : (i 0).val < 1 := (i 0).isLt
  have hi1 : (i 1).val < 2048 := (i 1).isLt
  have hN : (i 1).val / 128 < cfg1.N := by rw [show cfg1.N = 16 from N_1]; omega
  obtain ⟨-, -, -, -, -, -, -, -, -, -, e0, e1⟩ := idx1 ⟨(i 1).val / 128, hN⟩
  refine ⟨⟨(i 1).val / 128, hN⟩, flush1_5 _, ?_⟩
  show i ∈ ((View.whole main_v4).slice (win1_5.rect ⟨(i 1).val / 128, hN⟩)).set
  rw [View.set_slice_whole, Rect.mem_set_unit]
  intro a
  match a with
  | ⟨0, _⟩ =>
    show win1_5.index ⟨(i 1).val / 128, hN⟩ (0 : Fin 2) * 1 ≤ (i 0).val
      ∧ (i 0).val < win1_5.index ⟨(i 1).val / 128, hN⟩ (0 : Fin 2) * 1 + 1
    omega
  | ⟨1, _⟩ =>
    show win1_5.index ⟨(i 1).val / 128, hN⟩ (1 : Fin 2) * 128 ≤ (i 1).val
      ∧ (i 1).val < win1_5.index ⟨(i 1).val / 128, hN⟩ (1 : Fin 2) * 128 + 128
    simp only at e1
    omega

/-- After the second launch the lane row is the lane row of the five arrays as entered. -/
theorem arr1_5 (c : Dev nD) :
    (dat1 V c).arrAt 5 cfg1.N
      = outArrOf (V c main_arg0) (V c main_v2) (V c main_v1) (V c main_v3_0) (V c main_v3_1) :=
  (dat1 V c).arrAt_eq_of_cover 5 _ (fun t _ => flushed1_5 V c t) cover1_5w

end Regions

/-! ## What each launch is entered with, and the run -/

/-- The first launch finds the padded centers in its input array. -/
theorem V3_main_v0 (c : Dev nD) : V3 m ρ c main_v0 = cpad (m ((c : Thread nD τ).loc main_arg2)) := by
  show StableHlo.after hostOps0_2 (StableHlo.after hostOps0_1 (StableHlo.after hostOps0 (W0 m ρ c)))
    (Proc.devRef .tc main_v0) = _
  after_results
  rfl

/-- The second launch finds the batch as launched: no host operation and no launch writes it. -/
theorem V4_main_arg0 (c : Dev nD) : V4 m ρ c main_arg0 = m ((c : Thread nD τ).loc main_arg0) := by
  refine (W4_of_ne m ρ c main_arg0 (by decide)).trans ?_
  show StableHlo.after hostOps0_2 (StableHlo.after hostOps0_1 (StableHlo.after hostOps0 (W0 m ρ c)))
    (Proc.devRef .tc main_arg0) = _
  after_results

/-- … the labels reshaped to a column, -/
theorem V4_main_v2 (c : Dev nD) : V4 m ρ c main_v2 = lab2 (m ((c : Thread nD τ).loc main_arg1)) := by
  refine (W4_of_ne m ρ c main_v2 (by decide)).trans ?_
  show StableHlo.after hostOps0_2 (StableHlo.after hostOps0_1 (StableHlo.after hostOps0 (W0 m ρ c)))
    (Proc.devRef .tc main_v2) = _
  after_results
  rfl

/-- … the padded centers rounded to bf16, -/
theorem V4_main_v1 (c : Dev nD) : V4 m ρ c main_v1 = cbf (m ((c : Thread nD τ).loc main_arg2)) := by
  refine (W4_of_ne m ρ c main_v1 (by decide)).trans ?_
  show StableHlo.after hostOps0_2 (StableHlo.after hostOps0_1 (StableHlo.after hostOps0 (W0 m ρ c)))
    (Proc.devRef .tc main_v1) = _
  after_results
  rfl

/-- … and the first launch's two rows, payloads of the padded centers. -/
theorem V4_main_v3_0 (c : Dev nD) : V4 m ρ c main_v3_0 = k0_pay3 (cpad (m ((c : Thread nD τ).loc main_arg2))) :=
  (W4_arr m ρ c 1).trans ((arr0_1 (V3 m ρ) c).trans (congrArg k0_pay3 (V3_main_v0 m ρ c)))

theorem V4_main_v3_1 (c : Dev nD) : V4 m ρ c main_v3_1 = k0_pay4 (cpad (m ((c : Thread nD τ).loc main_arg2))) :=
  (W4_arr m ρ c 2).trans ((arr0_2 (V3 m ρ) c).trans (congrArg k0_pay4 (V3_main_v0 m ρ c)))

/-- After the second launch its output array is the lane row of the three arguments. -/
theorem W5_main_v4 (c : Dev nD) :
    W5 m ρ c (Proc.devRef .tc main_v4)
      = outArr (m ((c : Thread nD τ).loc main_arg0)) (m ((c : Thread nD τ).loc main_arg1))
          (m ((c : Thread nD τ).loc main_arg2)) := by
  refine (W5_arr m ρ c 5).trans ((arr1_5 (V4 m ρ) c).trans ?_)
  rw [V4_main_arg0 m ρ c, V4_main_v2 m ρ c, V4_main_v1 m ρ c, V4_main_v3_0 m ρ c, V4_main_v3_1 m ρ c]
  rfl

/-- The result buffer ends at the program's value of the three arguments. -/
theorem W6_kval (c : Dev nD) :
    W6 m ρ c (Proc.devRef .tc main_v7)
      = kval (m ((c : Thread nD τ).loc main_arg0)) (m ((c : Thread nD τ).loc main_arg1))
          (m ((c : Thread nD τ).loc main_arg2)) := by
  rw [W6_result m ρ c, W5_main_v4 m ρ c]
  rfl

/-- THE RUN: every weakly fair execution of the kernel program terminates, nothing faulting, with the result buffer at
    `kval` of the argument arrays and the argument arrays as launched. -/
theorem run : θ_run defs (onTc (τ := τ) (main (F := F))) ⟨m, fun _ => 0, ρ⟩ (fun r => ∀ c : Dev nD,
      r.2.mem ((c.tc : Thread nD τ).loc main_v7)
        = kval (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W6_kval m ρ c), (h c).2⟩) (Cert.KernelIdeal.GenP.run_value m ρ)

end Cert.KernelIdeal.Whole

end
-- ==== Proof.CenterStats.lean ====
/-
  The center-statistics kernel's two stored rows, read at an index over the extended reals.
  For the padded matrix of centers `cp` (1024 rows of 1024 columns):
    * entry j of the first row is the squared length of row j of `cp`;
    * entry j of the second row is the least half squared distance from row j to a row j' that is not masked, where
      (j, j') is masked when j = j', or j' is a padding row (j' ≥ 1000), or j is one (j ≥ 1000); a masked entry is +∞.
-/
import proofs.«409714_j15917148799612_3_alg».proof.Proof.Gen.KernelIdeal.Skeleton
import proofs.«409714_j15917148799612_3_alg».proof.Proof.TripletCenter
import Idealize.ShloMosaic.PureOps.Ideal.Laws
import Idealize.ShloMosaic.Lib.Pipeline.Value
import Idealize.ShloMosaic.Lib.ValueLayout
import Idealize.ShloMosaic.Lib.StableHlo.Predicate

noncomputable section

open scoped BigOperators

namespace Cert.KernelIdeal.CenterStats

open Idealize.ShloMosaic Idealize.ShloMosaic.ValueIdx Cert.KernelIdeal Cert.KernelIdeal.Gen Cert.TripletCenter

/-- A vector cast to a column reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over many columns reads, at (p, c), the column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row p of the 1024 × 1024 matrix with k inserted on the column axis is (p, k). -/
private theorem lift_row (h : S1024x1024.Reduces [1] S1024) (p : Fin 1024) (k : Fin 1024) :
    h.lift (ix1 p) k = ix2 p k :=
  funext fun c => Fin.ext (by
    match c with
    | ⟨0, _⟩ => rfl
    | ⟨1, _⟩ => rfl)

/-- Entry (p, u) of the column of row sums of squares is the squared length of row p. -/
theorem sqcol_apply (cp : Vec Ideal S1024x1024 .f32) (p : Fin 1024) (u : Fin 1) :
    k0_pay2 (F := Ideal) cp (ix2 p u) = sqn cp p := by
  unfold k0_pay2 k0_pay1
  -- the column at (p, u) is the vector of row sums at p
  refine (shapeCast_a_a1_apply _ _ p u).trans ?_
  rw [shapeCast_self]
  -- a row sum is the sum over the column coordinate k of the entry at (p, k)
  refine (Ideal.multiReduction_add_single _ _ _ _ _ (ix1 p)).trans ?_
  unfold sqn
  refine Finset.sum_congr rfl fun k _ => ?_
  exact congrArg (fun i => cp i * cp i) (lift_row reduces_S1024x1024_S1024 p k)

/-! ### The matrix product of the centers with their transpose, read at an index

The product contracts the left operand's columns with the right operand's rows. At output entry i and contraction
index q the left operand is read at (row of i, q) and the right operand at (q, column of i): the four coordinate
facts below, one per operand axis. -/

theorem gram_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem gram_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem gram_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem gram_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two 1024 × 1024 matrices into the zero accumulator: entry (p, q) is the sum over k of
    a (p, k) · b (k, q). -/
theorem gram_apply (a b : FVec Ideal S1024x1024 .bf16) (p q : Fin 1024) :
    matmul dot_S1024x1024_S1024x1024_S1024x1024_1_0_0_1_n_n none a b (constant (F := Ideal) S1024x1024 .f32 0x00000000#32) (ix2 p q)
      = ∑ k : Fin 1024, a (ix2 p k) * b (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun c => Fin.ext (by
    match c with
    | ⟨0, _⟩ => exact gram_lhs_0 _ _
    | ⟨1, _⟩ => exact (gram_lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun c => Fin.ext (by
    match c with
    | ⟨0, _⟩ => exact (gram_rhs_0 _ _).trans hk
    | ⟨1, _⟩ => exact gram_rhs_1 _ _)
  rw [el, er]

/-- The mask word at (p, q) is set exactly when p = q, or q is a padding row, or p is one. -/
theorem mask_iff (p q : Fin 1024) :
    IntOp.ori (IntOp.ori (IntOp.cmpi .eq (BitVec.ofNat 32 p.val) (BitVec.ofNat 32 q.val))
        (IntOp.cmpi .sge (BitVec.ofNat 32 q.val) 1000#32))
      (IntOp.cmpi .sge (BitVec.ofNat 32 p.val) 1000#32) = 1#1
      ↔ p = q ∨ 1000 ≤ q.val ∨ 1000 ≤ p.val := by
  have hp := p.isLt
  have hq := q.isLt
  have tp : (BitVec.ofNat 32 p.val).toNat = p.val := by rw [BitVec.toNat_ofNat]; omega
  have tq : (BitVec.ofNat 32 q.val).toNat = q.val := by rw [BitVec.toNat_ofNat]; omega
  have t1000 : (1000#32 : BitVec 32).toNat = 1000 := rfl
  rw [IntOp.ori_eq_one, IntOp.ori_eq_one, StableHlo.Predicate.cmpi_eq_iff,
    StableHlo.Predicate.sge_iff_toNat (by omega) (by decide), StableHlo.Predicate.sge_iff_toNat (by omega) (by decide),
    tp, tq, t1000]
  constructor
  · rintro ((h | h) | h)
    · exact .inl (Fin.ext (by have := congrArg BitVec.toNat h; rwa [tp, tq] at this))
    · exact .inr (.inl h)
    · exact .inr (.inr h)
  · rintro (h | h | h)
    · exact .inl (.inl (by rw [h]))
    · exact .inl (.inr h)
    · exact .inr h

/-- A minimum over ONE axis, read at an index: the fold of min from the accumulator's value over that axis's coordinates. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A comparison and a disjunction of words, read at an index. -/
private theorem cmpi_apply {s : Shape} {w : ℕ} (p : CmpIPredicate) (x y : IVec s w) (i : s.Idx) :
    cmpi p x y i = IntOp.cmpi p (x i) (y i) := rfl
private theorem ori_apply {s : Shape} {w : ℕ} (x y : IVec s w) (i : s.Idx) : ori x y i = IntOp.ori (x i) (y i) := rfl

/-- The row number and the column number at (p, q). -/
private theorem iota0_apply (p q : Fin 1024) :
    iota .tc S1024x1024 32 [0] iota_S1024x1024_d0_w32 (ix2 p q) = BitVec.ofNat 32 p.val :=
  iota_single_apply _ _ _ _ _ _
private theorem iota1_apply (p q : Fin 1024) :
    iota .tc S1024x1024 32 [1] iota_S1024x1024_d1_w32 (ix2 p q) = BitVec.ofNat 32 q.val :=
  iota_single_apply _ _ _ _ _ _

/-- The first cast of the loaded matrix is to its own shape. -/
theorem pay1_eq (cp : Vec Ideal S1024x1024 .f32) : k0_pay1 (F := Ideal) cp = cp := by
  unfold k0_pay1
  exact shapeCast_self _ _

/-- Entry (p, q) of the product of the centers with their transpose is the inner product of rows p and q. -/
theorem gram_dot (cp : Vec Ideal S1024x1024 .f32) (p q : Fin 1024) :
    matmul dot_S1024x1024_S1024x1024_S1024x1024_1_0_0_1_n_n none (truncf .bf16 (k0_pay1 (F := Ideal) cp) bitsLt_bf16_f32)
        (transpose S1024x1024 [1, 0] (truncf .bf16 (k0_pay1 (F := Ideal) cp) bitsLt_bf16_f32) transposes_S1024x1024_p1_0_S1024x1024)
        (constant (F := Ideal) S1024x1024 .f32 0x00000000#32) (ix2 p q)
      = dot cp cp p q := by
  rw [gram_apply, pay1_eq]
  unfold dot
  refine Finset.sum_congr rfl fun k _ => ?_
  rw [transpose_ix2_apply]
  rfl

/-- Entry j of the stored row of squared lengths. -/
theorem sqrow_apply (cp : Vec Ideal S1024x1024 .f32) (j : Fin 1024) :
    k0_pay3 (F := Ideal) cp (ix2 0 j) = sqn cp j := by
  unfold k0_pay3
  -- the row at (0, j) is the column at (j, 0)
  refine (transpose_ix2_apply _ _ 0 j).trans ?_
  exact sqcol_apply cp j 0

/-- Entry j of the stored row of least distances to another center. -/
theorem cenrow_apply (cp : Vec Ideal S1024x1024 .f32) (j : Fin 1024) :
    k0_pay4 (F := Ideal) cp (ix2 0 j)
      = (Finset.univ : Finset (Fin 1024)).fold min ⊤
          (fun j' => if j = j' ∨ 1000 ≤ j'.val ∨ 1000 ≤ j.val then ⊤
                     else hdist (sqn cp j) (sqn cp j') (dot cp cp j j')) := by
  unfold k0_pay4
  -- the row at (0, j) is the column at (j, 0), which is the vector of row minima at j
  refine (transpose_ix2_apply _ _ 0 j).trans ?_
  refine (shapeCast_a_a1_apply _ _ j 0).trans ?_
  -- a row minimum is the fold of min from +∞ over the column coordinate k of the masked entry at (j, k)
  refine (multiReduction_minimumf_single _ _ _ _ _ (ix1 j)).trans ?_
  have hinf : (FloatOps.ofBits (F := Ideal) .f32 0x7F800000#32) = (⊤ : EReal) := ofBits_inf
  rw [hinf]
  refine Finset.fold_congr fun (k : Fin 1024) _ => ?_
  refine (congrArg _ (lift_row reduces_S1024x1024_S1024 j k)).trans ?_
  -- the masked entry at (j, k): every pointwise operation read at the index, the row and column numbers as words
  simp only [select_apply, mulf_apply, subf_apply, addf_apply, broadcast_apply, cmpi_apply, ori_apply]
  rw [iota0_apply, iota1_apply]
  by_cases hm : j = k ∨ 1000 ≤ k.val ∨ 1000 ≤ j.val
  · -- masked: the select takes the named constant, which is +∞
    rw [if_pos hm, (mask_iff j k).mpr hm, select_one]
    exact IdealRules.named_const.ideal_named_scalar _ _ _ _ rfl
  · -- not masked: ½ · ((|row j|² + |row k|²) − 2 · ⟨row j, row k⟩), the squared lengths read off the column and the row
    rw [if_neg hm, eq_zero_of_ne_one (mt (mask_iff j k).mp hm), select_zero,
      broadcastTo_a1_ab_apply, broadcastTo_1b_ab_apply, sqcol_apply, sqrow_apply, gram_dot]
    rfl

end Cert.KernelIdeal.CenterStats

end
-- ==== Proof.RowLoss.lean ====
/-
  The main kernel's stored block, read at an index over the extended reals. For one block of 1024 batch rows `xb`,
  their label words `lb`, the padded centers `cb`, the row of squared center lengths `c2` and the row of center terms
  `cn`, every one of the 128 lanes of the stored block holds the sum over the block's rows of the row's loss, where for
  row r with label word w:
    * the distance to the own center is the sum over the 1024 columns j of (d r j if w is the word of j, else 0);
    * the least distance to another center is the minimum over the columns j of (+∞ if w is the word of j or j ≥ 1000,
      else d r j);
    * the center term is the sum over the columns j of (cn j if w is the word of j, else 0).
-/
import proofs.«409714_j15917148799612_3_alg».proof.Proof.Gen.KernelIdeal.Skeleton
import proofs.«409714_j15917148799612_3_alg».proof.Proof.TripletCenter
import Idealize.ShloMosaic.PureOps.Ideal.Laws
import Idealize.ShloMosaic.Lib.Pipeline.Value
import Idealize.ShloMosaic.Lib.ValueLayout
import Idealize.ShloMosaic.Lib.Affine
import Idealize.ShloMosaic.Lib.StableHlo.Predicate

noncomputable section

open scoped BigOperators

namespace Cert.KernelIdeal.RowLoss

open Idealize.ShloMosaic Idealize.ShloMosaic.ValueIdx Cert.KernelIdeal Cert.KernelIdeal.Gen Cert.TripletCenter

/-! ## Layout operations of a column, read at coordinates -/

section Layout
variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry `[1, 1]` broadcast to a row `[1, b]` reads that entry at every lane. -/
theorem broadcastTo_11_1b_apply {b : ℕ} (v : (⟨2, ![1, 1]⟩ : Shape).Idx → α) (h : (⟨2, ![1, 1]⟩ : Shape).Broadcasts ⟨2, ![1, b]⟩)
    (u : Fin 1) (c : Fin b) : broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

end Layout

/-! ## The reductions of a 1024 × 1024 block along its rows, and of a 1024 × 1 column, read at coordinates -/

/-- Over row `r`, the index with column `k` inserted is `(r, k)`. -/
theorem lift_row (h : S1024x1024.Reduces [1] S1024) (r k : Fin 1024) : h.lift (ix1 r) k = ix2 r k :=
  funext fun a => Fin.ext (match a with | ⟨0, _⟩ => rfl | ⟨1, _⟩ => rfl)

/-- Over the one kept entry of a column, the index with row `r` inserted is `(r, 0)`. -/
theorem lift_col (h : S1024x1.Reduces [0] S1) (r : Fin 1024) : h.lift (ix1 (0 : Fin 1)) r = ix2 r (0 : Fin 1) :=
  funext fun a => Fin.ext (match a with | ⟨0, _⟩ => rfl | ⟨1, _⟩ => rfl)

/-- The row sums of a block, kept as a column: at row `r` the sum over the 1024 columns. -/
theorem rowSum_apply (v : FVec Ideal S1024x1024 .f32) (hφ : FKind.Formats .f32)
    (hacc : (0x00000000#32 : BitVec 32) = FKind.add.neutral .f32 hφ) (r : Fin 1024) (u : Fin 1) :
    shapeCast S1024x1 (multiReduction .add [1] S1024 v 0x00000000#32 reduces_S1024x1024_S1024 hφ hacc)
        shapeCasts_S1024_S1024x1 (ix2 r u) = ∑ k : Fin 1024, v (ix2 r k) := by
  refine (shapeCast_a_a1_apply _ _ r u).trans ?_
  refine (Ideal.multiReduction_add_single v _ reduces_S1024x1024_S1024 hφ hacc (ix1 r)).trans ?_
  exact Finset.sum_congr rfl fun k _ => congrArg v (lift_row _ r k)

/-- The row minima of a block from the word of +∞, kept as a column: at row `r` the least entry over the 1024 columns. -/
theorem rowMin_apply (v : FVec Ideal S1024x1024 .f32) (hφ : FKind.Formats .f32)
    (hacc : (0x7F800000#32 : BitVec 32) = FKind.minimumf.neutral .f32 hφ) (r : Fin 1024) (u : Fin 1) :
    shapeCast S1024x1 (multiReduction .minimumf [1] S1024 v 0x7F800000#32 reduces_S1024x1024_S1024 hφ hacc)
        shapeCasts_S1024_S1024x1 (ix2 r u) = (Finset.univ : Finset (Fin 1024)).fold min ⊤ (fun k => v (ix2 r k)) := by
  refine (shapeCast_a_a1_apply _ _ r u).trans ?_
  refine (multiReduction_minimumf_eq_fold v _ reduces_S1024x1024_S1024 hφ hacc (ix1 r)).trans ?_
  refine (reduces_S1024x1024_S1024.fold_filter_drop_single _ _ v (ix1 r)).trans ?_
  show (Finset.univ : Finset (Fin 1024)).fold min (Ideal.ofBits .f32 0x7F800000#32)
      (fun k => v (reduces_S1024x1024_S1024.lift (ix1 r) k)) = _
  rw [ofBits_inf]
  exact congrArg (fun f => (Finset.univ : Finset (Fin 1024)).fold min ⊤ f) (funext fun k => congrArg v (lift_row _ r k))

/-- The sum of a column over its rows, at its one entry. -/
theorem colSum_apply (v : FVec Ideal S1024x1 .f32) (hφ : FKind.Formats .f32)
    (hacc : (0x00000000#32 : BitVec 32) = FKind.add.neutral .f32 hφ) :
    multiReduction .add [0] S1 v 0x00000000#32 reduces_S1024x1_S1 hφ hacc (ix1 (0 : Fin 1))
      = ∑ r : Fin 1024, v (ix2 r (0 : Fin 1)) := by
  refine (Ideal.multiReduction_add_single v _ reduces_S1024x1_S1 hφ hacc (ix1 (0 : Fin 1))).trans ?_
  exact Finset.sum_congr rfl fun r _ => congrArg v (lift_col _ r)

/-! ## The block's matrix product, read at coordinates

The product contracts the left operand's columns with the right operand's rows. Its operand indices at output `(r, j)` and
contraction position `k` are `(r, k)` and `(k, j)`: one equation per axis, then the contraction index is its one coordinate. -/

theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into the zero block, at `(r, j)`: the sum over `k` of the left operand at `(r, k)` times the right at `(k, j)`. -/
theorem matmul_block_apply (a b : FVec Ideal S1024x1024 .bf16) (r j : Fin 1024) :
    matmul dot_S1024x1024_S1024x1024_S1024x1024_1_0_0_1_n_n none a b (constant (F := Ideal) S1024x1024 .f32 0x00000000#32) (ix2 r j)
      = ∑ k : Fin 1024, a (ix2 r k) * b (ix2 k j) := by
  refine (Ideal.matmul_constant_zero_apply dot_S1024x1024_S1024x1024_S1024x1024_1_0_0_1_n_n none a b (ix2 r j)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r j) ((contrEquiv1 dot_S1024x1024_S1024x1024_S1024x1024_1_0_0_1_n_n 1024 rfl rfl).symm k) = ix2 r k := funext fun c => Fin.ext (by
    match c with
    | ⟨0, _⟩ => exact lhs_mm_0 _ _
    | ⟨1, _⟩ => exact (lhs_mm_1 _ _).trans hk)
  have er : dot_S1024x1024_S1024x1024_S1024x1024_1_0_0_1_n_n.rhsIdx (ix2 r j) ((contrEquiv1 dot_S1024x1024_S1024x1024_S1024x1024_1_0_0_1_n_n 1024 rfl rfl).symm k) = ix2 k j := funext fun c => Fin.ext (by
    match c with
    | ⟨0, _⟩ => exact (rhs_mm_0 _ _).trans hk
    | ⟨1, _⟩ => exact rhs_mm_1 _ _)
  rw [el, er]

/-- Half the squared distance from row r of the block to padded center j, from the block's operands. -/
def dblk (xb : Vec Ideal S1024x1024 .f32) (cb : Vec Ideal S1024x1024 .bf16) (c2 : Vec Ideal S1x1024 .f32)
    (r j : Fin 1024) : EReal :=
  hdist (sqn xb r) (c2 (ix2 0 j)) (dot xb cb r j)

/-- The loss of row r of the block, as the kernel computes it over all 1024 columns. -/
def rowLoss (xb : Vec Ideal S1024x1024 .f32) (lb : Vec Ideal S1024x1 .i32) (cb : Vec Ideal S1024x1024 .bf16)
    (c2 : Vec Ideal S1x1024 .f32) (cn : Vec Ideal S1x1024 .f32) (r : Fin 1024) : EReal :=
  max (((∑ j : Fin 1024, if lb (ix2 r 0) = BitVec.ofNat 32 j.val then dblk xb cb c2 r j else 0) + w5)
        - (Finset.univ : Finset (Fin 1024)).fold min ⊤
            (fun j => if lb (ix2 r 0) = BitVec.ofNat 32 j.val ∨ 1000 ≤ j.val then ⊤ else dblk xb cb c2 r j)) 0
    + max (w7 - ∑ j : Fin 1024, if lb (ix2 r 0) = BitVec.ofNat 32 j.val then cn (ix2 0 j) else 0) 0

/-! ## The block's payloads, read at coordinates -/

/-- The half squared distances: the entry at row `r`, column `j`. The row's squared length is the row sum of the squares,
    the center's is read off the row `c2`, and the product contracts the block's columns with the centers' columns. -/
theorem pay2_apply (xb : Vec Ideal S1024x1024 .f32) (cb : Vec Ideal S1024x1024 .bf16) (c2 : Vec Ideal S1x1024 .f32)
    (r j : Fin 1024) : k1_pay2 (F := Ideal) xb cb c2 (ix2 r j) = dblk xb cb c2 r j := by
  unfold k1_pay2 dblk hdist
  simp only [mulf_apply, subf_apply, addf_apply, broadcast_apply]
  refine congrArg₂ (· * ·) rfl (congrArg₂ (· - ·) (congrArg₂ (· + ·) ?_ ?_) (congrArg₂ (· * ·) rfl ?_))
  · exact (broadcastTo_a1_ab_apply _ _ r j).trans ((rowSum_apply _ _ _ r 0).trans rfl)
  · exact (broadcastTo_1b_ab_apply _ _ r j).trans (congrFun (shapeCast_self c2 _) _)
  · exact (matmul_block_apply _ _ r j).trans (Finset.sum_congr rfl fun k _ =>
      congrArg₂ (· * ·) rfl ((transpose_ix2_apply _ _ k j).trans (congrFun (shapeCast_self cb _) _)))

/-- The mask: at `(r, j)` the comparison of row `r`'s label word with the word of column `j`. -/
theorem pay3_apply (lb : Vec Ideal S1024x1 .i32) (r j : Fin 1024) :
    k1_pay3 (F := Ideal) lb (ix2 r j) = IntOp.cmpi .eq (lb (ix2 r (0 : Fin 1))) (BitVec.ofNat 32 j.val) := by
  unfold k1_pay3
  refine congrArg₂ (IntOp.cmpi .eq) ?_ ?_
  · exact (broadcastTo_a1_ab_apply _ _ r j).trans (congrFun (shapeCast_self lb _) _)
  · exact iota_single_apply .tc S1024x1024 32 1 _ (ix2 r j)

/-- The mask is set at `(r, j)` exactly when row `r`'s label word is the word of `j`. -/
theorem pay3_eq_one_iff (lb : Vec Ideal S1024x1 .i32) (r j : Fin 1024) :
    k1_pay3 (F := Ideal) lb (ix2 r j) = 1#1 ↔ lb (ix2 r (0 : Fin 1)) = BitVec.ofNat 32 j.val := by
  rw [pay3_apply]; exact IntOp.cmpi_eq

/-- The distance to the own center: the row sum of the distances under the mask. -/
theorem pay4_apply (xb : Vec Ideal S1024x1024 .f32) (lb : Vec Ideal S1024x1 .i32) (cb : Vec Ideal S1024x1024 .bf16)
    (c2 : Vec Ideal S1x1024 .f32) (r : Fin 1024) :
    k1_pay4 (F := Ideal) xb cb c2 lb (ix2 r (0 : Fin 1))
      = ∑ j : Fin 1024, if lb (ix2 r (0 : Fin 1)) = BitVec.ofNat 32 j.val then dblk xb cb c2 r j else 0 := by
  unfold k1_pay4
  refine (rowSum_apply _ _ _ r 0).trans (Finset.sum_congr rfl fun j _ => ?_)
  exact if_congr (pay3_eq_one_iff lb r j) (pay2_apply xb cb c2 r j) Ideal.ofBits_zero_f32

/-- The named constant that masks the minimum is +∞ at the ideal values. -/
theorem pos_big_eq : (Named.named κ "pos_big" (0x7149F2CA#32 : BitVec (FTy.bits .f32)) : Ideal .f32) = (⊤ : EReal) := rfl

/-- The word of column `j` is at least the word of 1000, as signed numbers, exactly when `1000 ≤ j`. -/
theorem sge_1000_iff (j : Fin 1024) : IntOp.cmpi .sge (BitVec.ofNat 32 j.val) 1000#32 = 1#1 ↔ 1000 ≤ j.val := by
  have hj : (BitVec.ofNat 32 j.val).toNat = j.val := by
    rw [BitVec.toNat_ofNat]; exact Nat.mod_eq_of_lt (by have := j.isLt; omega)
  have h := StableHlo.Predicate.sge_iff_toNat (a := BitVec.ofNat 32 j.val) (b := 1000#32)
    (by rw [hj]; have := j.isLt; omega) (by decide)
  rw [hj] at h
  exact h

/-- The least distance to another center: the row minimum of the distances with the own column and the padding columns at +∞. -/
theorem pay5_apply (xb : Vec Ideal S1024x1024 .f32) (lb : Vec Ideal S1024x1 .i32) (cb : Vec Ideal S1024x1024 .bf16)
    (c2 : Vec Ideal S1x1024 .f32) (r : Fin 1024) :
    k1_pay5 (F := Ideal) xb cb c2 lb (ix2 r (0 : Fin 1))
      = (Finset.univ : Finset (Fin 1024)).fold min ⊤
          (fun j => if lb (ix2 r (0 : Fin 1)) = BitVec.ofNat 32 j.val ∨ 1000 ≤ j.val then ⊤ else dblk xb cb c2 r j) := by
  unfold k1_pay5
  refine (rowMin_apply _ _ _ r 0).trans (congrArg (fun f => (Finset.univ : Finset (Fin 1024)).fold min ⊤ f) (funext fun j => ?_))
  refine if_congr ?_ pos_big_eq (pay2_apply xb cb c2 r j)
  refine IntOp.ori_eq_one.trans (or_congr (pay3_eq_one_iff lb r j) ?_)
  exact (congrArg (fun w => IntOp.cmpi .sge w 1000#32 = 1#1) (iota_single_apply .tc S1024x1024 32 1 _ (ix2 r j))).to_iff.trans (sge_1000_iff j)

/-- The center terms, one row broadcast over the block's rows. -/
theorem pay6_apply (cn : Vec Ideal S1x1024 .f32) (r j : Fin 1024) :
    k1_pay6 (F := Ideal) cn (ix2 r j) = cn (ix2 (0 : Fin 1) j) := by
  unfold k1_pay6
  refine (broadcastTo_1b_ab_apply _ _ r j).trans ?_
  rw [shapeCast_self, shapeCast_self]

/-- Every lane of the stored block is the block's loss sum. -/
theorem payload_apply (xb : Vec Ideal S1024x1024 .f32) (lb : Vec Ideal S1024x1 .i32) (cb : Vec Ideal S1024x1024 .bf16)
    (c2 : Vec Ideal S1x1024 .f32) (cn : Vec Ideal S1x1024 .f32) (l : Fin 128) :
    k1_pay1 (F := Ideal) (k1_pay3 lb) (k1_pay4 xb cb c2 lb) (k1_pay5 xb cb c2 lb) (k1_pay6 cn)
        (Scalar.ofBits .f32 0x00000000#32) (ix2 0 l)
      = ∑ r : Fin 1024, rowLoss xb lb cb c2 cn r := by
  unfold k1_pay1
  refine (broadcastTo_11_1b_apply _ _ 0 l).trans ?_
  refine (congrFun (shapeCast_self _ _) _).trans ?_
  refine (shapeCast_a_1a_apply _ _ 0 0).trans ?_
  refine (colSum_apply _ _ _).trans (Finset.sum_congr rfl fun r _ => ?_)
  unfold rowLoss
  simp only [addf_apply, maximumf_apply, subf_apply, broadcast_apply]
  refine congrArg₂ (· + ·)
    (congrArg₂ max (congrArg₂ (· - ·) (congrArg₂ (· + ·) (pay4_apply xb lb cb c2 r) rfl) (pay5_apply xb lb cb c2 r))
      Ideal.ofBits_zero_f32)
    (congrArg₂ max (congrArg₂ (· - ·) rfl ?_) Ideal.ofBits_zero_f32)
  refine (rowSum_apply _ _ _ r 0).trans (Finset.sum_congr rfl fun j _ => ?_)
  exact if_congr (pay3_eq_one_iff lb r j) (pay6_apply cn r j) Ideal.ofBits_zero_f32

end Cert.KernelIdeal.RowLoss

end
-- ==== Proof.Bridge.lean ====
/-
  The kernel program's value over the extended reals is the mean triplet-center loss.

  The kernel works on 1024 columns where there are 1000 classes: the centers are padded with 24 rows. With every label a
  class, for batch row b with class l:
    * the padded and rounded centers agree with the centers on the first 1000 rows, so half distances to a class
      column are the loss's half distances, for the batch rows and for the centers;
    * a sum over the 1024 columns masked by "the label's word is the column's" is the term of column l;
    * a minimum over the 1024 columns in which the label's column and the 24 padding columns hold +∞ is the minimum
      over the other 999 classes; likewise for the row of center terms, whose padding rows are never selected;
  so the row's loss as the kernel forms it is the loss, each block of 128 lanes holds its 1024 rows' sum, and the lanes'
  sum divided by 128 and by the batch size is the mean.
-/
import proofs.«409714_j15917148799612_3_alg».proof.Proof.KernelWhole
import proofs.«409714_j15917148799612_3_alg».proof.Proof.CenterStats
import proofs.«409714_j15917148799612_3_alg».proof.Proof.RowLoss
import proofs.«409714_j15917148799612_3_alg».proof.Proof.MinSum
import Idealize.ShloMosaic.Lib.KernelVsHost
import Idealize.ShloMosaic.Lib.Pipeline.Value
import Idealize.ShloMosaic.PureOps.Ideal.Laws

noncomputable section

open scoped BigOperators

namespace Cert.KernelIdeal.Bridge

open Idealize.ShloMosaic Idealize.ShloMosaic.ValueIdx Cert.KernelIdeal Cert.KernelIdeal.Gen Cert.KernelIdeal.Whole
  Cert.TripletCenter

/-- A class as a column number of the padded arrays. -/
abbrev col (j : Fin 1000) : Fin 1024 := ⟨j.val, by have := j.isLt; omega⟩

/-- Row 1024·t + r of the batch. -/
abbrev row (t : Fin 16) (r : Fin 1024) : Fin 16384 := ⟨t.val * 1024 + r.val, by have := t.isLt; have := r.isLt; omega⟩

/-! ## The host's preparation, read at an index -/

/-- A class's row of the padded matrix is its center. -/
theorem cpad_apply (cen : Vec Ideal S1000x1024 .f32) (j : Fin 1000) (k : Fin 1024) :
    cpad (F := Ideal) cen (ix2 (col j) k) = cen (ix2 j k) := by
  unfold cpad
  refine pad_apply_of_inside _ _ _ cen _ pads_S1000x1024_S1024x1024_0240_000 h_S_ (ix2 (col j) k) (ix2 j k) (fun a => ?_)
  match a with
  | ⟨0, _⟩ => show j.val = 0 + j.val * (0 + 1); omega
  | ⟨1, _⟩ => show k.val = 0 + k.val * (0 + 1); omega

/-- Rounding is the identity over the extended reals: the rounded padded matrix too. -/
theorem cbf_apply (cen : Vec Ideal S1000x1024 .f32) (j : Fin 1000) (k : Fin 1024) :
    cbf (F := Ideal) cen (ix2 (col j) k) = cen (ix2 j k) := by
  show cpad (F := Ideal) cen (ix2 (col j) k) = cen (ix2 j k)
  exact cpad_apply cen j k

/-- The label column at row b is label b. -/
theorem lab2_apply (lab : Vec Ideal S16384 .i32) (b : Fin 16384) :
    lab2 (F := Ideal) lab (ix2 b (0 : Fin 1)) = lab (ix1 b) := by
  unfold lab2
  refine shapeCast_apply lab shapeCasts_S16384_S16384x1 (ix2 b (0 : Fin 1)) (ix1 b) ?_
  rw [Shape.rowMajor_val_one, Shape.rowMajor_val_two]
  show b.val = b.val * 1 + 0
  omega

theorem sqn_cpad (cen : Vec Ideal S1000x1024 .f32) (j : Fin 1000) : sqn (cpad (F := Ideal) cen) (col j) = sqn cen j := by
  unfold sqn
  exact Finset.sum_congr rfl fun k _ => by rw [cpad_apply cen j k]

theorem dot_cpad (cen : Vec Ideal S1000x1024 .f32) (i j : Fin 1000) :
    dot (cpad (F := Ideal) cen) (cpad (F := Ideal) cen) (col i) (col j) = dot cen cen i j := by
  unfold dot
  exact Finset.sum_congr rfl fun k _ => by rw [cpad_apply cen i k, cpad_apply cen j k]

theorem sqn_xblk (x : Vec Ideal S16384x1024 .f32) (t : Fin 16) (r : Fin 1024) :
    sqn (xblk (F := Ideal) x t) r = sqn x (row t r) := rfl

theorem dot_xblk_cbf (x : Vec Ideal S16384x1024 .f32) (cen : Vec Ideal S1000x1024 .f32) (t : Fin 16) (r : Fin 1024)
    (j : Fin 1000) : dot (xblk (F := Ideal) x t) (cbf (F := Ideal) cen) r (col j) = dot x cen (row t r) j := by
  unfold dot
  exact Finset.sum_congr rfl fun k _ => by rw [cbf_apply cen j k]; rfl

/-! ## The kernel's half distances and center terms are the loss's -/

/-- The block's half distance from its row r to a class column is the loss's half distance. -/
theorem dblk_eq (x : Vec Ideal S16384x1024 .f32) (cen : Vec Ideal S1000x1024 .f32) (t : Fin 16) (r : Fin 1024)
    (j : Fin 1000) :
    RowLoss.dblk (xblk (F := Ideal) x t) (cbf (F := Ideal) cen) (k0_pay3 (F := Ideal) (cpad (F := Ideal) cen)) r (col j)
      = dxc x cen (row t r) j := by
  unfold RowLoss.dblk dxc
  rw [CenterStats.sqrow_apply, sqn_cpad, dot_xblk_cbf, sqn_xblk]

/-- The stored center term of a class is the least half distance from its center to another class's. -/
theorem cenrow_eq (cen : Vec Ideal S1000x1024 .f32) (l : Fin 1000) :
    k0_pay4 (F := Ideal) (cpad (F := Ideal) cen) (ix2 0 (col l)) = minOther (dcc cen l) l := by
  rw [CenterStats.cenrow_apply]
  unfold minOther
  refine fold_min_pad _ _ (fun j => ?_) (fun j hj => if_pos (Or.inr (Or.inl hj)))
  have hj := j.isLt
  have hl := l.isLt
  have hjl : (col l = (⟨j.val, by omega⟩ : Fin 1024) ∨ 1000 ≤ j.val ∨ 1000 ≤ (col l).val) ↔ j = l := by
    constructor
    · rintro (h | h | h)
      · exact Fin.ext (by have := congrArg Fin.val h; simp only at this; omega)
      · omega
      · simp only at h; omega
    · rintro rfl; exact Or.inl rfl
  show (if col l = (⟨j.val, _⟩ : Fin 1024) ∨ 1000 ≤ j.val ∨ 1000 ≤ (col l).val then (⊤ : EReal)
      else hdist (sqn (cpad (F := Ideal) cen) (col l)) (sqn (cpad (F := Ideal) cen) (col j))
        (dot (cpad (F := Ideal) cen) (cpad (F := Ideal) cen) (col l) (col j)))
    = if j = l then ⊤ else dcc cen l j
  refine if_congr hjl rfl ?_
  unfold dcc
  rw [sqn_cpad, sqn_cpad, dot_cpad]

/-! ## A row's loss -/

/-- With every label a class, the loss of row r of block t as the kernel forms it over 1024 columns is the loss. -/
theorem rowLoss_eq (x : Vec Ideal S16384x1024 .f32) (lab : Vec Ideal S16384 .i32) (cen : Vec Ideal S1000x1024 .f32)
    (h : InRange lab) (t : Fin 16) (r : Fin 1024) :
    RowLoss.rowLoss (xblk (F := Ideal) x t) (lblk (F := Ideal) (lab2 (F := Ideal) lab) t) (cbf (F := Ideal) cen)
        (k0_pay3 (F := Ideal) (cpad (F := Ideal) cen)) (k0_pay4 (F := Ideal) (cpad (F := Ideal) cen)) r
      = loss x cen (row t r) (classOf lab (row t r)) := by
  have hl := (classOf lab (row t r)).isLt
  have hw : lblk (F := Ideal) (lab2 (F := Ideal) lab) t (ix2 r (0 : Fin 1))
      = BitVec.ofNat 32 (col (classOf lab (row t r))).val :=
    (lab2_apply lab (row t r)).trans (ofNat_classOf h (row t r)).symm
  have hneg : (Finset.univ : Finset (Fin 1024)).fold min ⊤
        (fun j => if lblk (F := Ideal) (lab2 (F := Ideal) lab) t (ix2 r (0 : Fin 1)) = BitVec.ofNat 32 j.val ∨ 1000 ≤ j.val
          then (⊤ : EReal)
          else RowLoss.dblk (xblk (F := Ideal) x t) (cbf (F := Ideal) cen) (k0_pay3 (F := Ideal) (cpad (F := Ideal) cen)) r j)
      = minOther (dxc x cen (row t r)) (classOf lab (row t r)) := by
    unfold minOther
    refine fold_min_pad _ _ (fun j => ?_) (fun j hj => if_pos (Or.inr hj))
    have hj := j.isLt
    have hjl : (lblk (F := Ideal) (lab2 (F := Ideal) lab) t (ix2 r (0 : Fin 1)) = BitVec.ofNat 32 j.val ∨ 1000 ≤ j.val)
        ↔ j = classOf lab (row t r) := by
      rw [hw, ofNat_eq_ofNat_iff (by show (classOf lab (row t r)).val < 2 ^ 32; omega) (by omega)]
      constructor
      · rintro (e | e)
        · exact Fin.ext (by simp only at e; omega)
        · omega
      · rintro rfl; exact Or.inl rfl
    show (if lblk (F := Ideal) (lab2 (F := Ideal) lab) t (ix2 r (0 : Fin 1)) = BitVec.ofNat 32 j.val ∨ 1000 ≤ j.val
        then (⊤ : EReal)
        else RowLoss.dblk (xblk (F := Ideal) x t) (cbf (F := Ideal) cen) (k0_pay3 (F := Ideal) (cpad (F := Ideal) cen)) r (col j))
      = if j = classOf lab (row t r) then ⊤ else dxc x cen (row t r) j
    exact if_congr hjl rfl (dblk_eq x cen t r j)
  unfold RowLoss.rowLoss loss
  rw [hneg, sum_onehot_word _ (col (classOf lab (row t r))) hw, sum_onehot_word _ (col (classOf lab (row t r))) hw,
    dblk_eq, cenrow_eq]

/-! ## The program's value -/

/-- With every label a class, the kernel program's value is the mean loss. -/
theorem kval_eq_total (x : Vec Ideal S16384x1024 .f32) (lab : Vec Ideal S16384 .i32) (cen : Vec Ideal S1000x1024 .f32)
    (h : InRange lab) : kval (F := Ideal) x lab cen = fun _ => total x (classOf lab) cen := by
  funext i
  have hsum : Host.reduceAdd (F := Ideal) (outArr (F := Ideal) x lab cen) (constant (F := Ideal) S_ .f32 0x00000000#32) reducesTo_S1x2048_S_d0_1 h_S_ i
      = ∑ j : S1x2048.Idx, outArr (F := Ideal) x lab cen j := by
    generalize outArr (F := Ideal) x lab cen = y0
    simp only [Host.reduceAdd, Ideal.hostReduceAdd_def]
    rw [Ideal.hostReduceAdd_total reducesTo_S1x2048_S_d0_1 (fun b => b.elim0) y0 _ i]
    show Ideal.ofBits .f32 0x00000000#32 + _ = _
    rw [Ideal.ofBits_zero_f32, zero_add]
  show Ideal.div (Ideal.div (Host.reduceAdd (F := Ideal) (outArr (F := Ideal) x lab cen) (constant (F := Ideal) S_ .f32 0x00000000#32)
      reducesTo_S1x2048_S_d0_1 h_S_ i) (Ideal.ofBits .f32 0x43000000#32)) (Ideal.ofBits .f32 0x46800000#32)
    = Ideal.div (∑ b : Fin 16384, loss x cen b (classOf lab b)) wB
  rw [hsum]
  refine lane_mean (outArr (F := Ideal) x lab cen) (fun b => loss x cen b (classOf lab b)) (fun t l => ?_)
  refine (outArrOf_at _ _ _ _ _ t l _ rfl).trans ((RowLoss.payload_apply _ _ _ _ _ l).trans ?_)
  exact Finset.sum_congr rfl fun r _ => rowLoss_eq x lab cen h t r

end Cert.KernelIdeal.Bridge

end
-- ==== Proof.lean ====
/-
  A triplet-center loss computed by two launches against its reference: equal over the extended reals.

  The loss of a batch x (16384 rows), labels l (one of 1000 classes per row) and class centers c (1000 rows), all of
  1024 columns: with d(a, b) = ½·((|a|² + |b|²) − 2·a·b) half the squared distance,
      loss b = max (d(x_b, c_l) + 5 − min over j ≠ l of d(x_b, c_j)) 0 + max (7 − min over j ≠ l of d(c_l, c_j)) 0,
  and the result is the mean of loss b over the batch (Proof/TripletCenter.lean).

  The reference computes it with two gathers along the class axis and two masked minima over the 1000 classes
  (Proof/RefDist.lean, Proof/RefTotal.lean, over the reference's run read back stage by stage). The kernel pads the
  centers to 1024 rows; a first launch stores the centers' squared lengths and, per center, the least half distance
  to another center (Proof/CenterStats.lean); a second launch, 16 grid points of 1024 batch rows, forms each row's loss
  over 1024 columns — the own class picked by a sum masked with "the label is this column", the other classes by a
  minimum in which the label's column and the padding columns hold a large finite number, read as +∞ — and stores each
  block's sum on 128 equal lanes (Proof/RowLoss.lean); the host sums the 2048 lanes and divides by 128 and by 16384
  (Proof/KernelWhole.lean, over the frame's run). A masked sum with one column selected is that column's term, a
  minimum with +∞ on the padding is the minimum over the classes, and 128 equal lanes divided by 128 are one
  (Proof/MinSum.lean); so both programs compute the mean loss (Proof/Bridge.lean).

  Both sides index by the label, so the labels must be classes: the precondition says every label is at least 0 and
  below 1000 (Proof/LabelRange.lean reads that off it). Outside that range the reference reads another class's row or
  its gather's fill value, and the two programs differ.
-/
import proofs.«409714_j15917148799612_3_alg».proof.Defs
import proofs.«409714_j15917148799612_3_alg».proof.Proof.Gen.Kernel
import proofs.«409714_j15917148799612_3_alg».proof.Proof.Gen.Kernel.Skeleton
import proofs.«409714_j15917148799612_3_alg».proof.Proof.Gen.Kernel.Launch
import proofs.«409714_j15917148799612_3_alg».proof.Proof.Gen.Kernel.Points
import proofs.«409714_j15917148799612_3_alg».proof.Proof.Gen.Kernel.Frame
import proofs.«409714_j15917148799612_3_alg».proof.Proof.Gen.KernelIdeal
import proofs.«409714_j15917148799612_3_alg».proof.Proof.Gen.KernelIdeal.Skeleton
import proofs.«409714_j15917148799612_3_alg».proof.Proof.Gen.KernelIdeal.Launch
import proofs.«409714_j15917148799612_3_alg».proof.Proof.Gen.KernelIdeal.Points
import proofs.«409714_j15917148799612_3_alg».proof.Proof.Gen.KernelIdeal.Frame
import proofs.«409714_j15917148799612_3_alg».proof.Proof.Gen.ReferenceIdeal
import proofs.«409714_j15917148799612_3_alg».proof.Proof.Gen.Pre_finite_inputs
import proofs.«409714_j15917148799612_3_alg».proof.Proof.LabelRange
import proofs.«409714_j15917148799612_3_alg».proof.Proof.RefRun
import proofs.«409714_j15917148799612_3_alg».proof.Proof.RefRead
import proofs.«409714_j15917148799612_3_alg».proof.Proof.RefTotal
import proofs.«409714_j15917148799612_3_alg».proof.Proof.KernelWhole
import proofs.«409714_j15917148799612_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both mask fills of the kernel, the large finite number 10³⁰, are named +∞ by the certificate's table. -/
theorem preserves : Cert.preserves_Kernel_KernelIdeal :=
  ⟨IdealRules.named_const.statement Cert.KernelIdeal.κ "pos_big" .f32 0x7149F2CA#32 ⊤ rfl,
   IdealRules.named_const.statement Cert.KernelIdeal.κ "pos_big" .f32 0x7149F2CA#32 ⊤ rfl⟩

/-- From memories that agree on the arguments and labels that are classes, the kernel program ends at its value of the
    arguments and the reference at its last stage of them; both are the mean loss. -/
theorem algebraic : Cert.algebraic_KernelIdeal_ReferenceIdeal := by
  intro m ρ m' ρ' hpre hagree
  have hr : ∀ c : Dev Cert.KernelIdeal.nD, Cert.TripletCenter.InRange
      (m ((c.tc : Thread Cert.KernelIdeal.nD Cert.KernelIdeal.τ).loc Cert.KernelIdeal.main_arg1)) :=
    fun c => Cert.Pre_finite_inputs.LabelRange.inRange _ _ _ (hpre c)
  refine ⟨fun c => Cert.KernelIdeal.Whole.kval (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v57_eq m' c, (hagree c).1, (hagree c).2.1, (hagree c).2.2,
    Cert.ReferenceIdeal.RefTotal.val_eq_total _ _ _ (hr c)]
  exact (Cert.KernelIdeal.Bridge.kval_eq_total _ _ _ (hr c)).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
